-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S400000 : Shape := ⟨1, ![400000]⟩
abbrev S200000 : Shape := ⟨1, ![200000]⟩
abbrev S600000 : Shape := ⟨1, ![600000]⟩
abbrev S100000x2 : Shape := ⟨2, ![100000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg25 : FVec F S256x128 .f32) (main_arg26 : FVec F S256x1 .f32) (main_arg27 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S256x128 .f32 := Host.absf main_arg25
  let main_cst_48 : FVec F S_ .f32 := constant S_ .f32 0x7F800000#32
  let main_v125 : FVec F S256x128 .f32 := broadcastInDim S256x128 ![] bcast_S_S256x128 main_cst_48
  let main_v126 : IVec S256x128 1 := cmpf .olt main_v124 main_v125
  let main_c_49 : IVec S_ 1 := constantI S_ 1 1#1
  let main_v127 : IVec S_ 1 := (fun x v => Host.reduce IntOp.andi x v reducesTo_S256x128_S_d0_1 h_S_) main_v126 main_c_49
  let main_v128 : IVec S_ 1 := andi main_v123 main_v127
  let main_v129 : FVec F S256x1 .f32 := Host.absf main_arg26
  let main_cst_50 : FVec F S_ .f32 := constant S_ .f32 0x7F800000#32
  let main_v130 : FVec F S256x1 .f32 := broadcastInDim S256x1 ![] bcast_S_S256x1 main_cst_50
  let main_v131 : IVec S256x1 1 := cmpf .olt main_v129 main_v130
  let main_c_51 : IVec S_ 1 := constantI S_ 1 1#1
  let main_v132 : IVec S_ 1 := (fun x v => Host.reduce IntOp.andi x v reducesTo_S256x1_S_d0_1 h_S_) main_v131 main_c_51
  let main_v133 : IVec S_ 1 := andi main_v128 main_v132
  let main_v134 : FVec F S1 .f32 := Host.absf main_arg27
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S256x128 .f32 := Host.absf main_arg23
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg24
  fn_part7 (F := F) main_arg25 main_arg26 main_arg27 main_v118 main_v119

def fn_part5 {F : FTy → Type} [FloatOps F] (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x128 .f32 := Host.absf main_arg19
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128x256 .f32 := Host.absf main_arg20
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S128x256 .f32) (main_arg15 : FVec F S256 .f32) (main_arg16 : FVec F S128x256 .f32) (main_arg17 : FVec F S256x128 .f32) (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v63 : IVec S_ 1) (main_v67 : IVec S_ 1) : IVec S_ 1 :=
  let main_v68 : IVec S_ 1 := andi main_v63 main_v67
  let main_v69 : FVec F S128x256 .f32 := Host.absf main_arg14
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S128x256 .f32 := Host.absf main_arg16
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S256x128 .f32) (main_arg12 : FVec F S128 .f32) (main_arg13 : FVec F S256x128 .f32) (main_arg14 : FVec F S128x256 .f32) (main_arg15 : FVec F S256 .f32) (main_arg16 : FVec F S128x256 .f32) (main_arg17 : FVec F S256x128 .f32) (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S256x128 .f32) (main_arg8 : FVec F S128x256 .f32) (main_arg9 : FVec F S256 .f32) (main_arg10 : FVec F S128x256 .f32) (main_arg11 : FVec F S256x128 .f32) (main_arg12 : FVec F S128 .f32) (main_arg13 : FVec F S256x128 .f32) (main_arg14 : FVec F S128x256 .f32) (main_arg15 : FVec F S256 .f32) (main_arg16 : FVec F S128x256 .f32) (main_arg17 : FVec F S256x128 .f32) (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S128x256 .f32) (main_arg5 : FVec F S256x128 .f32) (main_arg6 : FVec F S128 .f32) (main_arg7 : FVec F S256x128 .f32) (main_arg8 : FVec F S128x256 .f32) (main_arg9 : FVec F S256 .f32) (main_arg10 : FVec F S128x256 .f32) (main_arg11 : FVec F S256x128 .f32) (main_arg12 : FVec F S128 .f32) (main_arg13 : FVec F S256x128 .f32) (main_arg14 : FVec F S128x256 .f32) (main_arg15 : FVec F S256 .f32) (main_arg16 : FVec F S128x256 .f32) (main_arg17 : FVec F S256x128 .f32) (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x128 .f32) (main_arg1 : FVec F S20000x128 .f32) (main_arg2 : FVec F S128x256 .f32) (main_arg3 : FVec F S256 .f32) (main_arg4 : FVec F S128x256 .f32) (main_arg5 : FVec F S256x128 .f32) (main_arg6 : FVec F S128 .f32) (main_arg7 : FVec F S256x128 .f32) (main_arg8 : FVec F S128x256 .f32) (main_arg9 : FVec F S256 .f32) (main_arg10 : FVec F S128x256 .f32) (main_arg11 : FVec F S256x128 .f32) (main_arg12 : FVec F S128 .f32) (main_arg13 : FVec F S256x128 .f32) (main_arg14 : FVec F S128x256 .f32) (main_arg15 : FVec F S256 .f32) (main_arg16 : FVec F S128x256 .f32) (main_arg17 : FVec F S256x128 .f32) (main_arg18 : FVec F S128 .f32) (main_arg19 : FVec F S256x128 .f32) (main_arg20 : FVec F S128x256 .f32) (main_arg21 : FVec F S256 .f32) (main_arg22 : FVec F S128x256 .f32) (main_arg23 : FVec F S256x128 .f32) (main_arg24 : FVec F S128 .f32) (main_arg25 : FVec F S256x128 .f32) (main_arg26 : FVec F S256x1 .f32) (main_arg27 : FVec F S1 .f32) (main_arg28 : IVec S400000 32) (main_arg29 : IVec S400000 32) (main_arg30 : IVec S400000 32) (main_arg31 : IVec S400000 32) (main_arg32 : IVec S200000 32) (main_arg33 : IVec S200000 32) (main_arg34 : IVec S600000 32) (main_arg35 : IVec S600000 32) (main_arg36 : IVec S100000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x128 : Shape := ⟨2, ![50000, 128]⟩
abbrev S20000x128 : Shape := ⟨2, ![20000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S400000 : Shape := ⟨1, ![400000]⟩
abbrev S200000 : Shape := ⟨1, ![200000]⟩
abbrev S600000 : Shape := ⟨1, ![600000]⟩
abbrev S100000x2 : Shape := ⟨2, ![100000, 2]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S600000x256 : Shape := ⟨2, ![600000, 256]⟩
abbrev S128x1 : Shape := ⟨2, ![128, 1]⟩
abbrev S128x2 : Shape := ⟨2, ![128, 2]⟩
abbrev S50000x2 : Shape := ⟨2, ![50000, 2]⟩
abbrev S2000x2 : Shape := ⟨2, ![2000, 2]⟩
abbrev S1x128 : Shape := ⟨2, ![1, 128]⟩
abbrev S50000x1 : Shape := ⟨2, ![50000, 1]⟩
abbrev S50000 : Shape := ⟨1, ![50000]⟩
abbrev S100000x1 : Shape := ⟨2, ![100000, 1]⟩
abbrev S100000 : Shape := ⟨1, ![100000]⟩

abbrev nBuf : Space → Nat
  | .hbm => 110
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S20000x128, .f32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x256, .f32⟩
  | .hbm, ⟨9, _⟩ => ⟨S256, .f32⟩
  | .hbm, ⟨10, _⟩ => ⟨S128x256, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128x256, .f32⟩
  | .hbm, ⟨15, _⟩ => ⟨S256, .f32⟩
  | .hbm, ⟨16, _⟩ => ⟨S128x256, .f32⟩
  | .hbm, ⟨17, _⟩ => ⟨S256x128, .f32⟩
  | .hbm, ⟨18, _⟩ => ⟨S128, .f32⟩
  | .hbm, ⟨19, _⟩ => ⟨S256x128, .f32⟩
  | .hbm, ⟨20, _⟩ => ⟨S128x256, .f32⟩
  | .hbm, ⟨21, _⟩ => ⟨S256, .f32⟩
  | .hbm, ⟨22, _⟩ => ⟨S128x256, .f32⟩
  | .hbm, ⟨23, _⟩ => ⟨S256x128, .f32⟩
  | .hbm, ⟨24, _⟩ => ⟨S128, .f32⟩
  | .hbm, ⟨25, _⟩ => ⟨S256x128, .f32⟩
  | .hbm, ⟨26, _⟩ => ⟨S256x1, .f32⟩
  | .hbm, ⟨27, _⟩ => ⟨S1, .f32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S200000, .i32⟩
  | .hbm, ⟨33, _⟩ => ⟨S200000, .i32⟩
  | .hbm, ⟨34, _⟩ => ⟨S600000, .i32⟩
  | .hbm, ⟨35, _⟩ => ⟨S600000, .i32⟩
  | .hbm, ⟨36, _⟩ => ⟨S100000x2, .i32⟩
  | .hbm, ⟨37, _⟩ => ⟨S50000x128, .bf16⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .bf16⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x256, .bf16⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x256, .bf16⟩
  | .hbm, ⟨62, _⟩ => ⟨S600000x256, .f32⟩
  | .hbm, ⟨63, _⟩ => ⟨S_, .f32⟩
  | .hbm, ⟨64, _⟩ => ⟨S50000x256, .f32⟩
  | .hbm, ⟨65, _⟩ => ⟨S600000x1, .i32⟩
  | .hbm, ⟨66, _⟩ => ⟨S50000x256, .f32⟩
  | .hbm, ⟨67, _⟩ => ⟨S128x1, .f32⟩
  | .hbm, ⟨68, _⟩ => ⟨S128x1, .f32⟩
  | .hbm, ⟨69, _⟩ => ⟨S128x2, .f32⟩
  | .hbm, ⟨70, _⟩ => ⟨S50000x2, .f32⟩
  | .hbm, ⟨71, _⟩ => ⟨S50000x1, .f32⟩
  | .hbm, ⟨72, _⟩ => ⟨S50000, .f32⟩
  | .hbm, ⟨73, _⟩ => ⟨S50000x1, .f32⟩
  | .hbm, ⟨74, _⟩ => ⟨S50000, .f32⟩
  | .hbm, ⟨75, _⟩ => ⟨S100000x1, .i32⟩
  | .hbm, ⟨76, _⟩ => ⟨S100000, .i32⟩
  | .hbm, ⟨77, _⟩ => ⟨S_, .i32⟩
  | .hbm, ⟨78, _⟩ => ⟨S100000, .i32⟩
  | .hbm, ⟨79, _⟩ => ⟨S100000, .i1⟩
  | .hbm, ⟨80, _⟩ => ⟨S_, .i32⟩
  | .hbm, ⟨81, _⟩ => ⟨S100000, .i32⟩
  | .hbm, ⟨82, _⟩ => ⟨S100000, .i32⟩
  | .hbm, ⟨83, _⟩ => ⟨S100000, .i32⟩
  | .hbm, ⟨84, _⟩ => ⟨S100000x1, .i32⟩
  | .hbm, ⟨85, _⟩ => ⟨S100000, .f32⟩
  | .hbm, ⟨86, _⟩ => ⟨S100000x1, .i32⟩
  | .hbm, ⟨87, _⟩ => ⟨S100000, .i32⟩
  | .hbm, ⟨88, _⟩ => ⟨S_, .i32⟩
  | .hbm, ⟨89, _⟩ => ⟨S100000, .i32⟩
  | .hbm, ⟨90, _⟩ => ⟨S100000, .i1⟩
  | .hbm, ⟨91, _⟩ => ⟨S_, .i32⟩
  | .hbm, ⟨92, _⟩ => ⟨S100000, .i32⟩
  | .hbm, ⟨93, _⟩ => ⟨S100000, .i32⟩
  | .hbm, ⟨94, _⟩ => ⟨S100000, .i32⟩
  | .hbm, ⟨95, _⟩ => ⟨S100000x1, .i32⟩
  | .hbm, ⟨96, _⟩ => ⟨S100000, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .bf16⟩
  | .local _ .vmem, ⟨12, _⟩ => ⟨S2000x256, .bf16⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S128x2, .f32⟩
  | .local _ .vmem, ⟨17, _⟩ => ⟨S2000x2, .f32⟩
  | .local _ .vmem, ⟨18, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_c : Ref sig .tc := ⟨.hbm, 38, rfl⟩
abbrev main_v1 : Ref sig .tc := ⟨.hbm, 39, rfl⟩
abbrev main_v2 : Ref sig .tc := ⟨.hbm, 40, rfl⟩
abbrev main_c_0 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_c_1 : Ref sig .tc := ⟨.hbm, 53, rfl⟩
abbrev main_v13 : Ref sig .tc := ⟨.hbm, 54, rfl⟩
abbrev main_v14 : Ref sig .tc := ⟨.hbm, 55, rfl⟩
abbrev main_c_2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_3 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_v34 : Ref sig .tc := ⟨.hbm, 78, rfl⟩
abbrev main_v35 : Ref sig .tc := ⟨.hbm, 79, rfl⟩
abbrev main_c_5 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_6 : Ref sig .tc := ⟨.hbm, 88, rfl⟩
abbrev main_v43 : Ref sig .tc := ⟨.hbm, 89, rfl⟩
abbrev main_v44 : Ref sig .tc := ⟨.hbm, 90, rfl⟩
abbrev main_c_7 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_8 : Ref sig .tc := ⟨.hbm, 103, rfl⟩
abbrev main_v56 : Ref sig .tc := ⟨.hbm, 104, rfl⟩
abbrev main_v57 : Ref sig .tc := ⟨.hbm, 105, rfl⟩
abbrev main_cst_9 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2000x2_S2000x2_0_0 : ∀ a, (![0, 0] : Fin 2 → Nat) a + S2000x2.size a ≤ S2000x2.size a
  h_S2000x2 : 0 < S2000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  shapeCasts_S1_S_ : S1.ShapeCasts S_
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x128_S2000x128_1_0_0_1_n_n_wf : DotDims.WF S2000x256 S256x128 S2000x128 [1] [0] [0] [1] [] []
  dot_S2000x128_S128x2_S2000x2_1_0_0_1_n_n_wf : DotDims.WF S2000x128 S128x2 S2000x2 [1] [0] [0] [1] [] []
  gather_S50000_S100000x1_S100000_n_0_n_n_0_1_1_wf : GatherDims.WF S50000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S50000x2.size a
  hwx1_6 : ∀ i : grid1.Coords, EltTy.bits .f32 = 32 ∨ (Rect.block (s := S50000x2) S2000x2.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf

abbrev win0_0 : Pipeline.Window sig grid0 :=
  Pipeline.Window.ofSpec (Memref.whole main_v11) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg21) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg23) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg25) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg24) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S2000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S400000 : Shape := ⟨1, ![400000]⟩
abbrev S200000 : Shape := ⟨1, ![200000]⟩
abbrev S600000 : Shape := ⟨1, ![600000]⟩
abbrev S100000x2 : Shape := ⟨2, ![100000, 2]⟩
abbrev S_ : Shape := ⟨0, ![]⟩
abbrev S400000x1 : Shape := ⟨2, ![400000, 1]⟩
abbrev S400000x128 : Shape := ⟨2, ![400000, 128]⟩
abbrev S20000x256 : Shape := ⟨2, ![20000, 256]⟩
abbrev S1x256 : Shape := ⟨2, ![1, 256]⟩
abbrev S200000x1 : Shape := ⟨2, ![200000, 1]⟩
abbrev S200000x128 : Shape := ⟨2, ![200000, 128]⟩
abbrev S600000x1 : Shape := ⟨2, ![600000, 1]⟩
abbrev S600000x128 : Shape := ⟨2, ![600000, 128]⟩
abbrev S50000x256 : Shape := ⟨2, ![50000, 256]⟩
abbrev S400000x256 : Shape := ⟨2, ![400000, 256]⟩
abbrev S1x128 : Shape := ⟨2, ![1, 128]⟩
abbrev S200000x256 : Shape := ⟨2, ![200000, 256]⟩
abbrev S600000x256 : Shape := ⟨2, ![600000, 256]⟩
abbrev S100000x1 : Shape := ⟨2, ![100000, 1]⟩
abbrev S100000 : Shape := ⟨1, ![100000]⟩
abbrev S100000x128 : Shape := ⟨2, ![100000, 128]⟩
abbrev S100000x256 : Shape := ⟨2, ![100000, 256]⟩
abbrev S1x1 : Shape := ⟨2, ![1, 1]⟩

abbrev nBuf : Space → Nat
  | .hbm => 234
  | .vmem => 0
  | .smem => 0
  | _ => 0

abbrev hbmTy0_0 (i : Nat) : BufTy := match i % 128 with
  | 0 => ⟨S50000x128, .f32⟩
  | 1 => ⟨S20000x128, .f32⟩
  | 2 => ⟨S128x256, .f32⟩
  | 3 => ⟨S256, .f32⟩
  | 4 => ⟨S128x256, .f32⟩
  | 5 => ⟨S256x128, .f32⟩
  | 6 => ⟨S128, .f32⟩
  | 7 => ⟨S256x128, .f32⟩
  | 8 => ⟨S128x256, .f32⟩
  | 9 => ⟨S256, .f32⟩
  | 10 => ⟨S128x256, .f32⟩
  | 11 => ⟨S256x128, .f32⟩
  | 12 => ⟨S128, .f32⟩
  | 13 => ⟨S256x128, .f32⟩
  | 14 => ⟨S128x256, .f32⟩
  | 15 => ⟨S256, .f32⟩
  | 16 => ⟨S128x256, .f32⟩
  | 17 => ⟨S256x128, .f32⟩
  | 18 => ⟨S128, .f32⟩
  | 19 => ⟨S256x128, .f32⟩
  | 20 => ⟨S128x256, .f32⟩
  | 21 => ⟨S256, .f32⟩
  | 22 => ⟨S128x256, .f32⟩
  | 23 => ⟨S256x128, .f32⟩
  | 24 => ⟨S128, .f32⟩
  | 25 => ⟨S256x128, .f32⟩
  | 26 => ⟨S256x1, .f32⟩
  | 27 => ⟨S1, .f32⟩
  | 28 => ⟨S400000, .i32⟩
  | 29 => ⟨S400000, .i32⟩
  | 30 => ⟨S400000, .i32⟩
  | 31 => ⟨S400000, .i32⟩
  | 32 => ⟨S200000, .i32⟩
  | 33 => ⟨S200000, .i32⟩
  | 34 => ⟨S600000, .i32⟩
  | 35 => ⟨S600000, .i32⟩
  | 36 => ⟨S100000x2, .i32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S_, .f32⟩
  | 47 => ⟨S20000x128, .f32⟩
  | 48 => ⟨S400000x1, .i32⟩
  | 49 => ⟨S20000x128, .f32⟩
  | 50 => ⟨S20000x256, .f32⟩
  | 51 => ⟨S1x256, .f32⟩
  | 52 => ⟨S20000x256, .f32⟩
  | 53 => ⟨S20000x256, .f32⟩
  | 54 => ⟨S20000x256, .f32⟩
  | 55 => ⟨S20000x256, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x128, .f32⟩
  | 65 => ⟨S_, .f32⟩
  | 66 => ⟨S20000x128, .f32⟩
  | 67 => ⟨S400000x1, .i32⟩
  | 68 => ⟨S20000x128, .f32⟩
  | 69 => ⟨S20000x256, .f32⟩
  | 70 => ⟨S1x256, .f32⟩
  | 71 => ⟨S20000x256, .f32⟩
  | 72 => ⟨S20000x256, .f32⟩
  | 73 => ⟨S20000x256, .f32⟩
  | 74 => ⟨S20000x256, .f32⟩
  | 75 => ⟨S20000x256, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x128, .f32⟩
  | 85 => ⟨S_, .f32⟩
  | 86 => ⟨S20000x128, .f32⟩
  | 87 => ⟨S200000x1, .i32⟩
  | 88 => ⟨S20000x128, .f32⟩
  | 89 => ⟨S20000x256, .f32⟩
  | 90 => ⟨S1x256, .f32⟩
  | 91 => ⟨S20000x256, .f32⟩
  | 92 => ⟨S20000x256, .f32⟩
  | 93 => ⟨S20000x256, .f32⟩
  | 94 => ⟨S20000x256, .f32⟩
  | 95 => ⟨S20000x256, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S50000x256, .f32⟩
  | 115 => ⟨S_, .f32⟩
  | 116 => ⟨S20000x256, .f32⟩
  | 117 => ⟨S20000x256, .f32⟩
  | 118 => ⟨S_, .f32⟩
  | 119 => ⟨S50000x256, .f32⟩
  | 120 => ⟨S50000x256, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S50000x128, .f32⟩

abbrev hbmTy0_1 (i : Nat) : BufTy := match i % 128 with
  | 0 => ⟨S400000x1, .i32⟩
  | 1 => ⟨S400000x256, .f32⟩
  | 2 => ⟨S_, .f32⟩
  | 3 => ⟨S20000x256, .f32⟩
  | 4 => ⟨S400000x1, .i32⟩
  | 5 => ⟨S20000x256, .f32⟩
  | 6 => ⟨S20000x128, .f32⟩
  | 7 => ⟨S1x128, .f32⟩
  | 8 => ⟨S20000x128, .f32⟩
  | 9 => ⟨S20000x128, .f32⟩
  | 10 => ⟨S20000x128, .f32⟩
  | 11 => ⟨S20000x128, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x256, .f32⟩
  | 21 => ⟨S_, .f32⟩
  | 22 => ⟨S20000x256, .f32⟩
  | 23 => ⟨S400000x1, .i32⟩
  | 24 => ⟨S20000x256, .f32⟩
  | 25 => ⟨S20000x128, .f32⟩
  | 26 => ⟨S1x128, .f32⟩
  | 27 => ⟨S20000x128, .f32⟩
  | 28 => ⟨S20000x128, .f32⟩
  | 29 => ⟨S20000x128, .f32⟩
  | 30 => ⟨S20000x128, .f32⟩
  | 31 => ⟨S20000x128, .f32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x256, .f32⟩
  | 41 => ⟨S_, .f32⟩
  | 42 => ⟨S20000x256, .f32⟩
  | 43 => ⟨S200000x1, .i32⟩
  | 44 => ⟨S20000x256, .f32⟩
  | 45 => ⟨S20000x128, .f32⟩
  | 46 => ⟨S1x128, .f32⟩
  | 47 => ⟨S20000x128, .f32⟩
  | 48 => ⟨S20000x128, .f32⟩
  | 49 => ⟨S20000x128, .f32⟩
  | 50 => ⟨S20000x128, .f32⟩
  | 51 => ⟨S20000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x256, .f32⟩
  | 61 => ⟨S_, .f32⟩
  | 62 => ⟨S50000x256, .f32⟩
  | 63 => ⟨S600000x1, .i32⟩
  | 64 => ⟨S50000x256, .f32⟩
  | 65 => ⟨S50000x128, .f32⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x128, .f32⟩
  | 82 => ⟨S100000x1, .i32⟩
  | 83 => ⟨S100000, .i32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x128, .f32⟩
  | 93 => ⟨S100000x256, .f32⟩
  | 94 => ⟨S100000x1, .f32⟩
  | 95 => ⟨S1x1, .f32⟩
  | 96 => ⟨S100000x1, .f32⟩
  | 97 => ⟨S100000x1, .f32⟩
  | 98 => ⟨S100000x1, .f32⟩
  | 99 => ⟨S100000x1, .f32⟩
  | 100 => ⟨S_, .f32⟩
  | 101 => ⟨S100000x1, .f32⟩
  | 102 => ⟨S100000x1, .f32⟩
  | 103 => ⟨S_, .f32⟩
  | 104 => ⟨S100000x1, .f32⟩
  | 105 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_c : Ref sig .tc := ⟨.hbm, 37, rfl⟩
abbrev main_v0 : Ref sig .tc := ⟨.hbm, 38, rfl⟩
abbrev main_v1 : Ref sig .tc := ⟨.hbm, 39, rfl⟩
abbrev main_c_0 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c_1 : Ref sig .tc := ⟨.hbm, 56, rfl⟩
abbrev main_v16 : Ref sig .tc := ⟨.hbm, 57, rfl⟩
abbrev main_v17 : Ref sig .tc := ⟨.hbm, 58, rfl⟩
abbrev main_c_2 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_3 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_4 : Ref sig .tc := ⟨.hbm, 76, rfl⟩
abbrev main_v33 : Ref sig .tc := ⟨.hbm, 77, rfl⟩
abbrev main_v34 : Ref sig .tc := ⟨.hbm, 78, rfl⟩
abbrev main_c_5 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_6 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_7 : Ref sig .tc := ⟨.hbm, 96, rfl⟩
abbrev main_v50 : Ref sig .tc := ⟨.hbm, 97, rfl⟩
abbrev main_v51 : Ref sig .tc := ⟨.hbm, 98, rfl⟩
abbrev main_c_8 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_9 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_call0_cst : Ref sig .tc := ⟨.hbm, 115, rfl⟩
abbrev main_call0_v0 : Ref sig .tc := ⟨.hbm, 116, rfl⟩
abbrev main_v66 : Ref sig .tc := ⟨.hbm, 117, rfl⟩
abbrev main_call1_cst : Ref sig .tc := ⟨.hbm, 118, rfl⟩
abbrev main_call1_v0 : Ref sig .tc := ⟨.hbm, 119, rfl⟩
abbrev main_v67 : Ref sig .tc := ⟨.hbm, 120, rfl⟩
abbrev main_c_10 : Ref sig .tc := ⟨.hbm, 121, rfl⟩
abbrev main_v68 : Ref sig .tc := ⟨.hbm, 122, rfl⟩
abbrev main_v69 : Ref sig .tc := ⟨.hbm, 123, rfl⟩
abbrev main_c_11 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_12 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_13 : Ref sig .tc := ⟨.hbm, 140, rfl⟩
abbrev main_v84 : Ref sig .tc := ⟨.hbm, 141, rfl⟩
abbrev main_v85 : Ref sig .tc := ⟨.hbm, 142, rfl⟩
abbrev main_c_14 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_15 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_c_16 : Ref sig .tc := ⟨.hbm, 160, rfl⟩
abbrev main_v101 : Ref sig .tc := ⟨.hbm, 161, rfl⟩
abbrev main_v102 : Ref sig .tc := ⟨.hbm, 162, rfl⟩
abbrev main_c_17 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_18 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_19 : Ref sig .tc := ⟨.hbm, 180, rfl⟩
abbrev main_v118 : Ref sig .tc := ⟨.hbm, 181, rfl⟩
abbrev main_v119 : Ref sig .tc := ⟨.hbm, 182, rfl⟩
abbrev main_c_20 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_21 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_c_22 : Ref sig .tc := ⟨.hbm, 201, rfl⟩
abbrev main_v136 : Ref sig .tc := ⟨.hbm, 202, rfl⟩
abbrev main_v137 : Ref sig .tc := ⟨.hbm, 203, rfl⟩
abbrev main_c_23 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_c_24 : Ref sig .tc := ⟨.hbm, 212, rfl⟩
abbrev main_v145 : Ref sig .tc := ⟨.hbm, 213, rfl⟩
abbrev main_v146 : Ref sig .tc := ⟨.hbm, 214, rfl⟩
abbrev main_c_25 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_26 : Ref sig .tc := ⟨.hbm, 228, rfl⟩
abbrev main_v159 : Ref sig .tc := ⟨.hbm, 229, rfl⟩
abbrev main_v160 : Ref sig .tc := ⟨.hbm, 230, rfl⟩
abbrev main_cst_27 : Ref sig .tc := ⟨.hbm, 231, rfl⟩
abbrev main_v161 : Ref sig .tc := ⟨.hbm, 232, rfl⟩
abbrev main_v162 : Ref sig .tc := ⟨.hbm, 233, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S20000x128 : S_.BroadcastsInDim S20000x128 (![] : Fin 0 → Fin S20000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S1x256_S50000x256_0_1 : S1x256.BroadcastsInDim S50000x256 (![0, 1] : Fin 2 → Fin S50000x256.rank)
  bcast_S_S20000x256 : S_.BroadcastsInDim S20000x256 (![] : Fin 0 → Fin S20000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S1x128_S50000x128_0_1 : S1x128.BroadcastsInDim S50000x128 (![0, 1] : Fin 2 → Fin S50000x128.rank)
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S50000x128_S400000x1_S400000x128_1_0_n_n_0_1_1128_wf : GatherDims.WF S50000x128 S400000x1 S400000x128 [1] [0] [] [0] [] 1 ![1, 128]
  scatter_S20000x128_S400000x1_S400000x128_1_0_0_1_wf : ScatterDims.WF S20000x128 S400000x1 S400000x128 [1] [0] [0] 1
  dot_S20000x128_S128x256_S20000x256_1_0_0_1_n_n_wf : DotDims.WF S20000x128 S128x256 S20000x256 [1] [0] [0] [1] [] []
  gather_S20000x128_S200000x1_S200000x128_1_0_n_n_0_1_1128_wf : GatherDims.WF S20000x128 S200000x1 S200000x128 [1] [0] [] [0] [] 1 ![1, 128]
  scatter_S20000x128_S200000x1_S200000x128_1_0_0_1_wf : ScatterDims.WF S20000x128 S200000x1 S200000x128 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S20000x256_S400000x1_S400000x256_1_0_0_1_wf : ScatterDims.WF S20000x256 S400000x1 S400000x256 [1] [0] [0] 1
  dot_S20000x256_S256x128_S20000x128_1_0_0_1_n_n_wf : DotDims.WF S20000x256 S256x128 S20000x128 [1] [0] [0] [1] [] []
  gather_S20000x256_S200000x1_S200000x256_1_0_n_n_0_1_1256_wf : GatherDims.WF S20000x256 S200000x1 S200000x256 [1] [0] [] [0] [] 1 ![1, 256]
  scatter_S20000x256_S200000x1_S200000x256_1_0_0_1_wf : ScatterDims.WF S20000x256 S200000x1 S200000x256 [1] [0] [0] 1
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []
  gather_S50000x128_S100000x1_S100000x128_1_0_n_n_0_1_1128_wf : GatherDims.WF S50000x128 S100000x1 S100000x128 [1] [0] [] [0] [] 1 ![1, 128]
  dot_S100000x256_S256x1_S100000x1_1_0_0_1_n_n_wf : DotDims.WF S100000x256 S256x1 S100000x1 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S20000x256_S400000x1_S400000x256_1_0_0_1 : ScatterDims S20000x256 S400000x1 S400000x256 where
  updateWindowDims := [1]
  insertedWindowDims := [0]
  scatterDimsToOperandDims := [0]
  indexVectorDim := 1
  wf := scatter_S20000x256_S400000x1_S400000x256_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Spec.lean ====
/-
  The functions the two programs compute, written once over the extended reals.

  A graph-convolution layer combines, at node n and output feature j, a neighbour aggregate and the node's own
  features through two weight matrices and a bias:
      lin n j = (Σ_q agg[n,q]·wrel[q,j] + Σ_q x[n,q]·wroot[q,j]) + b[j].
  The first layer clips it below at zero. The pair read-out multiplies the second layer's rows by the two halves of a
  256-entry weight column; `score` is that product against the two halves laid side by side as a [H, 2] matrix, and
  `sg` is the logistic function as both programs spell it, 1 / (1 + exp (−z)).
  Addition of extended reals is commutative and associative, so the bias may be added before or after the second
  product (`lin_bias_first`), and a sum over 256 terms is the sum of its two halves (`sum_halves`): no finiteness is used.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

variable {N K H : ℕ}

/-- One entry of a layer before any clipping: aggregate times its weights, plus features times theirs, plus the bias. -/
def lin (agg x : (⟨2, ![N, K]⟩ : Shape).Idx → EReal) (wrel wroot : (⟨2, ![K, H]⟩ : Shape).Idx → EReal)
    (b : (⟨1, ![H]⟩ : Shape).Idx → EReal) (n : Fin N) (j : Fin H) : EReal :=
  ((∑ q : Fin K, agg (ix2 n q) * wrel (ix2 q j)) + ∑ q : Fin K, x (ix2 n q) * wroot (ix2 q j)) + b (ix1 j)

/-- The same entry with the bias added before the second product: addition is commutative and associative. -/
theorem lin_bias_first (agg x : (⟨2, ![N, K]⟩ : Shape).Idx → EReal) (wrel wroot : (⟨2, ![K, H]⟩ : Shape).Idx → EReal)
    (b : (⟨1, ![H]⟩ : Shape).Idx → EReal) (n : Fin N) (j : Fin H) :
    ((∑ q : Fin K, agg (ix2 n q) * wrel (ix2 q j)) + b (ix1 j)) + ∑ q : Fin K, x (ix2 n q) * wroot (ix2 q j)
      = lin agg x wrel wroot b n j :=
  add_right_comm _ _ _

/-- A layer without clipping, as a whole array. -/
def conv (agg x : (⟨2, ![N, K]⟩ : Shape).Idx → EReal) (wrel wroot : (⟨2, ![K, H]⟩ : Shape).Idx → EReal)
    (b : (⟨1, ![H]⟩ : Shape).Idx → EReal) : (⟨2, ![N, H]⟩ : Shape).Idx → EReal :=
  fun i => lin agg x wrel wroot b (i 0) (i 1)

/-- A layer clipped below at zero, as a whole array. -/
def convRelu (agg x : (⟨2, ![N, K]⟩ : Shape).Idx → EReal) (wrel wroot : (⟨2, ![K, H]⟩ : Shape).Idx → EReal)
    (b : (⟨1, ![H]⟩ : Shape).Idx → EReal) : (⟨2, ![N, H]⟩ : Shape).Idx → EReal :=
  fun i => max (lin agg x wrel wroot b (i 0) (i 1)) 0

theorem conv_ix2 (agg x : (⟨2, ![N, K]⟩ : Shape).Idx → EReal) (wrel wroot : (⟨2, ![K, H]⟩ : Shape).Idx → EReal)
    (b : (⟨1, ![H]⟩ : Shape).Idx → EReal) (n : Fin N) (j : Fin H) :
    conv agg x wrel wroot b (ix2 n j) = lin agg x wrel wroot b n j := rfl

theorem convRelu_ix2 (agg x : (⟨2, ![N, K]⟩ : Shape).Idx → EReal) (wrel wroot : (⟨2, ![K, H]⟩ : Shape).Idx → EReal)
    (b : (⟨1, ![H]⟩ : Shape).Idx → EReal) (n : Fin N) (j : Fin H) :
    convRelu agg x wrel wroot b (ix2 n j) = max (lin agg x wrel wroot b n j) 0 := rfl

/-- Rows of `h` against the columns of a two-column matrix. -/
def score (h : (⟨2, ![N, H]⟩ : Shape).Idx → EReal) (wcat : (⟨2, ![H, 2]⟩ : Shape).Idx → EReal) :
    (⟨2, ![N, 2]⟩ : Shape).Idx → EReal :=
  fun i => ∑ f : Fin H, h (ix2 (i 0) f) * wcat (ix2 f (i 1))

theorem score_ix2 (h : (⟨2, ![N, H]⟩ : Shape).Idx → EReal) (wcat : (⟨2, ![H, 2]⟩ : Shape).Idx → EReal) (n : Fin N) (j : Fin 2) :
    score h wcat (ix2 n j) = ∑ f : Fin H, h (ix2 n f) * wcat (ix2 f j) := rfl

/-- The logistic function as both programs spell it: one over one plus the exponential of the negation. -/
def sg (z : Ideal .f32) : Ideal .f32 :=
  FloatOps.hostDivf (FloatOps.ofBits .f32 0x3F800000#32)
    (FloatOps.addf (FloatOps.ofBits .f32 0x3F800000#32) (FloatOps.hostUnary .exp (FloatOps.hostNegf z)))

/-- The table row an index word addresses: the word read as a signed integer and clamped into `[0, N − 1]`. -/
def row {M : ℕ} (N : ℕ) (hN : 0 < N) (I : IVec ⟨2, ![M, 1]⟩ 32) (p : Fin M) : Fin N :=
  ⟨min (I (ix2 p (0 : Fin 1))).toInt.toNat (N - 1), by omega⟩

/-- A sum over `A + B` terms is the sum of the first `A` plus the sum of the last `B`. -/
theorem sum_halves {A B : ℕ} (g : Fin (A + B) → EReal) :
    ∑ k : Fin (A + B), g k = (∑ f : Fin A, g (Fin.castAdd B f)) + ∑ f : Fin B, g (Fin.natAdd A f) :=
  Fin.sum_univ_add g

end Cert.Spec

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LayerA.lean ====
/-
  The first layer's launch, read as one array.

  The launch walks the 50000 nodes in 25 tiles of 2000 rows. At tile t the body multiplies the tile's rows of the
  aggregate and of the features by the two whole weight matrices, adds the products and the bias row, clips below at
  zero and writes the tile's rows of the result. Row r of tile t is row 2000·t + r of the arrays, so every tile's
  rows are the restriction of ONE function of the whole arrays, the tiles cover all rows, and the array the launch
  leaves is that function: the clipped layer of the specification.
-/
import proofs.«412818_j17119739641951_2_alg».proof.Proof.Gen.KernelIdeal.Frame
import proofs.«412818_j17119739641951_2_alg».proof.Proof.Spec
import proofs.«412818_j17119739641951_2_alg».proof.Proof.LibMatmulPlain
set_option maxRecDepth 16384

noncomputable section

namespace Cert.KernelIdeal.LayerA

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## One tile's arithmetic, entry by entry -/

/-- A store or a load at offset (0, 0) of a buffer of its own size is at offset zero on every axis. -/
theorem origin2 : (![0, 0] : Fin 2 → Nat) = fun _ => 0 := funext fun a => by fin_cases a <;> rfl

/-- The same for a one-axis buffer. -/
theorem origin1 : (![0] : Fin 1 → Nat) = fun _ => 0 := funext fun a => by fin_cases a <;> rfl

/-- Entry (r, j) of a 2000×128 by 128×256 product accumulated into zero is the sum over the 128 shared
    coordinates: the product's dimension record is the plain one (contract the left operand's columns with the
    right operand's rows, no batch axis). -/
theorem product_entry (l : FVec Ideal S2000x128 .bf16) (w : FVec Ideal S128x256 .bf16) (r : Fin 2000) (j : Fin 256) :
    matmul dot_S2000x128_S128x256_S2000x256_1_0_0_1_n_n none l w (constant (F := Ideal) S2000x256 .f32 0x00000000#32) (ix2 r j)
      = ∑ q : Fin 128, l (ix2 r q) * w (ix2 q j) :=
  Cert.LibMatmulPlain.matmul_plain_apply (M := 2000) (K := 128) (N := 256) l w r j

/-- What the body computes from a tile x0 of the aggregate, the same tile x1 of the features, the two weight
    matrices x2, x3 and the bias x4, at row r of the tile and output feature j: the two products summed, the bias
    entry added, the result clipped below at zero. On the extended reals a change of float format is the identity,
    the bias row is repeated down the 2000 rows, and the zero word is the number zero. -/
theorem tile_entry (x0 x1 : Vec Ideal S2000x128 .f32) (x2 x3 : Vec Ideal S128x256 .f32) (x4 : Vec Ideal S256 .f32)
    (r : Fin 2000) (j : Fin 256) :
    k0_pay1 (F := Ideal) x0 x1 x2 x3 x4 (ix2 r j)
      = max (((∑ q : Fin 128, x0 (ix2 r q) * x2 (ix2 q j)) + ∑ q : Fin 128, x1 (ix2 r q) * x3 (ix2 q j)) + x4 (ix1 j)) 0 := by
  unfold k0_pay1
  rw [truncf_apply, maximumf_apply, addf_apply, addf_apply, broadcast_apply, product_entry, product_entry,
    broadcastTo_1b_ab_apply, shapeCast_a_1a_apply, Ideal.ofBits_def, Ideal.ofBits_zero_f32, shapeCast_self]
  rfl

/-! ## Where a tile sits in the arrays -/

/-- The index maps over the 25 tiles: the aggregate, the features and the result move one block of rows per
    tile and stay at column block 0; the two weight matrices and the bias stay at block 0 throughout. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- There are 25 tiles. -/
theorem tile_count : cfg0.N = 25 := N_0

/-- Row r of tile t is row 2000·t + r of a 50000-row array: 2000·24 + 1999 = 49999. -/
def tileRow (t : Fin cfg0.N) (r : Fin 2000) : Fin 50000 :=
  ⟨2000 * t.val + r.val, by have ht := t.isLt; have hr := r.isLt; have hN := tile_count; omega⟩

variable (V : (c : Dev nD) → (b : Ref sig .tc) → Buf (Elt Ideal) ((c : Thread nD τ).loc b))

/-- The aggregate's block at tile t, at (r, q), is the aggregate at (2000·t + r, q). -/
theorem agg_tile_entry (c : Dev nD) (t : Fin cfg0.N) (r : Fin 2000) (q : Fin 128) :
    (iblk0 V c 0 t : Vec Ideal S2000x128 .f32) (ix2 r q) = (V c main_v11 : S50000x128.Idx → EReal) (ix2 (tileRow t r) q) := by
  obtain ⟨e0, e1, -⟩ := tile_index t
  unfold iblk0
  rw [View.read_apply]
  show (V c main_v11 : S50000x128.Idx → EReal) (((cfg0.win 0).blk t).view.emb (ix2 r q)) = _
  refine congrArg (V c main_v11 : S50000x128.Idx → EReal) (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * q.val = q.val; omega

/-- The features' block at tile t, at (r, q), is the features at (2000·t + r, q). -/
theorem feat_tile_entry (c : Dev nD) (t : Fin cfg0.N) (r : Fin 2000) (q : Fin 128) :
    (iblk0 V c 1 t : Vec Ideal S2000x128 .f32) (ix2 r q) = (V c main_arg0 : S50000x128.Idx → EReal) (ix2 (tileRow t r) q) := by
  obtain ⟨-, -, e0, e1, -⟩ := tile_index t
  unfold iblk0
  rw [View.read_apply]
  show (V c main_arg0 : S50000x128.Idx → EReal) (((cfg0.win 1).blk t).view.emb (ix2 r q)) = _
  refine congrArg (V c main_arg0 : S50000x128.Idx → EReal) (funext fun a => Fin.ext ?_)
  match a with
  | ⟨0, _⟩ => show win0_1.index t (0 : Fin 2) * 2000 + 1 * r.val = 2000 * t.val + r.val; omega
  | ⟨1, _⟩ => show win0_1.index t (1 : Fin 2) * 128 + 1 * q.val = q.val; omega

/-- At every tile the block of the aggregate's weights is the whole matrix. -/
theorem wrel_entry (c : Dev nD) (t : Fin cfg0.N) (q : Fin 128) (j : Fin 256) :
    (iblk0 V c 2 t : Vec Ideal S128x256 .f32) (ix2 q j) = (V c main_arg20 : S128x256.Idx → EReal) (ix2 q j) := by
  obtain ⟨-, -, -, -, e0, e1, -⟩ := tile_index t
  unfold iblk0
  rw [View.read_apply]
  show (V c main_arg20 : S128x256.Idx → EReal) (((cfg0.win 2).blk t).view.emb (ix2 q j)) = _
  refine congrArg (V c main_arg20 : S128x256.Idx → EReal) (funext fun a => Fin.ext ?_)
  match a with
  | ⟨0, _⟩ => show win0_2.index t (0 : Fin 2) * 128 + 1 * q.val = q.val; omega
  | ⟨1, _⟩ => show win0_2.index t (1 : Fin 2) * 256 + 1 * j.val = j.val; omega

/-- At every tile the block of the features' weights is the whole matrix. -/
theorem wroot_entry (c : Dev nD) (t : Fin cfg0.N) (q : Fin 128) (j : Fin 256) :
    (iblk0 V c 3 t : Vec Ideal S128x256 .f32) (ix2 q j) = (V c main_arg22 : S128x256.Idx → EReal) (ix2 q j) := by
  obtain ⟨-, -, -, -, -, -, e0, e1, -⟩ := tile_index t
  unfold iblk0
  rw [View.read_apply]
  show (V c main_arg22 : S128x256.Idx → EReal) (((cfg0.win 3).blk t).view.emb (ix2 q j)) = _
  refine congrArg (V c main_arg22 : S128x256.Idx → EReal) (funext fun a => Fin.ext ?_)
  match a with
  | ⟨0, _⟩ => show win0_3.index t (0 : Fin 2) * 128 + 1 * q.val = q.val; omega
  | ⟨1, _⟩ => show win0_3.index t (1 : Fin 2) * 256 + 1 * j.val = j.val; omega

/-- At every tile the block of the bias is the whole bias. -/
theorem bias_entry (c : Dev nD) (t : Fin cfg0.N) (j : Fin 256) :
    (iblk0 V c 4 t : Vec Ideal S256 .f32) (ix1 j) = (V c main_arg21 : S256.Idx → EReal) (ix1 j) := by
  obtain ⟨-, -, -, -, -, -, -, -, e0, -⟩ := tile_index t
  unfold iblk0
  rw [View.read_apply]
  show (V c main_arg21 : S256.Idx → EReal) (((cfg0.win 4).blk t).view.emb (ix1 j)) = _
  refine congrArg (V c main_arg21 : S256.Idx → EReal) (funext fun a => Fin.ext ?_)
  match a with
  | ⟨0, _⟩ => show win0_4.index t (0 : Fin 1) * 256 + 1 * j.val = j.val; omega

/-- Entry (r, j) of the result's block at tile t is entry (2000·t + r, j) of the result. -/
theorem out_tile_index (t : Fin cfg0.N) (r : Fin 2000) (j : Fin 256) :
    (((cfg0.win 5).blk t).view.emb (ix2 r j) : S50000x256.Idx) = ix2 (tileRow t r) j := by
  obtain ⟨-, -, -, -, -, -, -, -, -, e0, e1⟩ := tile_index t
  refine funext fun a => Fin.ext ?_
  match a with
  | ⟨0, _⟩ => show win0_5.index t (0 : Fin 2) * 2000 + 1 * r.val = 2000 * t.val + r.val; omega
  | ⟨1, _⟩ => show win0_5.index t (1 : Fin 2) * 256 + 1 * j.val = j.val; omega

/-! ## Every tile writes its rows of one function; the tiles cover the rows -/

/-- The clipped layer of the arrays the launch is entered with, as one 50000×256 array. -/
abbrev layerArr (c : Dev nD) : S50000x256.Idx → EReal :=
  Cert.Spec.convRelu (N := 50000) (K := 128) (H := 256) (V c main_v11) (V c main_arg0) (V c main_arg20) (V c main_arg22) (V c main_arg21)

/-- What tile t writes back is the clipped layer read through the tile's rows: at (r, j) the body's value is built
    from row 2000·t + r of the aggregate and of the features and from column j of the weights and the bias, which
    is the clipped layer at (2000·t + r, j). -/
theorem tile_written (c : Dev nD) (t : Fin cfg0.N) :
    (dat0 (F := Ideal) V c).flushed 5 t = ((cfg0.win 5).blk t).view.read (Elt Ideal) (layerArr V c) := by
  show (cfg0.win 5).cut (grid0.coords t) ((dat0 (F := Ideal) V c).after 5 t) = _
  rw [after0_5]
  unfold out0_5
  rw [View.canon_unit_zero origin2]
  simp only [View.ld_unit_zero (S := S2000x128) origin2, View.ld_unit_zero (S := S128x256) origin2, View.ld_unit_zero (S := S256) origin1]
  funext y
  obtain ⟨r, j, rfl⟩ : ∃ (r : Fin 2000) (j : Fin 256), y = ix2 r j := ⟨y 0, y 1, eq_ix2 y⟩
  show k0_pay1 (F := Ideal) (iblk0 V c 0 t) (iblk0 V c 1 t) (iblk0 V c 2 t) (iblk0 V c 3 t) (iblk0 V c 4 t) (ix2 r j)
    = layerArr V c (((cfg0.win 5).blk t).view.emb (ix2 r j))
  rw [out_tile_index t r j]
  refine ((tile_entry (iblk0 V c 0 t) (iblk0 V c 1 t) (iblk0 V c 2 t) (iblk0 V c 3 t) (iblk0 V c 4 t) r j).trans ?_).trans
    (Cert.Spec.convRelu_ix2 (N := 50000) (K := 128) (H := 256) (V c main_v11) (V c main_arg0) (V c main_arg20) (V c main_arg22) (V c main_arg21) (tileRow t r) j).symm
  unfold Cert.Spec.lin
  refine congrArg (fun z : EReal => max z 0) ?_
  refine congrArg₂ (· + ·) (congrArg₂ (· + ·) (Finset.sum_congr rfl fun q _ => ?_) (Finset.sum_congr rfl fun q _ => ?_)) ?_
  · rw [agg_tile_entry, wrel_entry]
  · rw [feat_tile_entry, wroot_entry]
  · exact bias_entry V c t j

/-- An entry of the result lies in tile t's block iff each coordinate lies in the block's range on its axis. -/
theorem mem_tile (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v12).slice (win0_5.rect t)).set ↔ _
  rw [View.set_slice_whole, Rect.mem_set_unit]
  exact Iff.rfl

/-- Every entry of the result is written by some tile: row n by tile n / 2000, since 2000·(n / 2000) ≤ n <
    2000·(n / 2000) + 2000 and n / 2000 < 25 for n < 50000; every tile spans all 256 columns. -/
theorem tiles_cover (i : S50000x256.Idx) :
    ∃ t : Fin cfg0.N, (cfg0.win 5).flush t = true ∧ i ∈ ((cfg0.win 5).blk t).view.set := by
  have h0 : (i 0).val < 50000 := idx2_lt0 i
  have h1 : (i 1).val < 256 := idx2_lt1 i
  have hN : cfg0.N = 25 := tile_count
  obtain ⟨t, ht⟩ : ∃ t : Fin cfg0.N, t.val = (i 0).val / 2000 := ⟨⟨(i 0).val / 2000, by omega⟩, rfl⟩
  obtain ⟨-, -, -, -, -, -, -, -, -, e0, e1⟩ := tile_index t
  refine ⟨t, flush0_5 t, ?_⟩
  rw [mem_tile]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The array the first launch leaves in its output is the clipped layer of the arrays it was entered with. -/
theorem hp_array (c : Dev nD) :
    (dat0 (F := Ideal) V c).arrAt 5 cfg0.N
      = Cert.Spec.convRelu (N := 50000) (K := 128) (H := 256) (V c main_v11) (V c main_arg0) (V c main_arg20) (V c main_arg22) (V c main_arg21) :=
  (dat0 (F := Ideal) V c).arrAt_eq_of_cover 5 (layerArr V c) (fun t _ => tile_written V c t) tiles_cover

end Cert.KernelIdeal.LayerA

end
-- ==== Proof.LayerB.lean ====
/-
  The second layer's launch, fused with the read-out product, read as one array.

  The launch walks the 50000 nodes in 25 tiles of 2000 rows. At tile t the body forms the tile's rows of the second
  layer (aggregate and hidden features against the two whole weight matrices, plus the bias row, no clipping) and
  multiplies them at once by the two-column read-out matrix, writing the tile's rows of the [50000, 2] score array.
  Row r of tile t is row 2000·t + r of the arrays; the tiles cover all rows; the array the launch leaves is the
  specification's score of the unclipped layer.

  The steps. (1) The body's value at entry (r, j) of a tile, over arbitrary operands: the outer product is read first,
  a sum over the 128 hidden features f of inner[r, f] · wcat[f, j]; inside the sum the inner value is the sum of two
  256-term products plus the bias entry f. Changes of float format are the identity on the extended reals and the
  casts keep the shape. (2) Where each operand's block lies in its array: the two row-tiled operands at block (t, 0),
  so entry (r, q) of the block is entry (2000·t + r, q) of the array; the four others are whole arrays. (3) So the
  tile written at point t is the specification's score read through rows 2000·t … 2000·t + 1999. (4) Row n lies in
  tile n / 2000, so the tiles cover the array and the array ends holding the score.
-/
import proofs.«412818_j17119739641951_2_alg».proof.Proof.Gen.KernelIdeal.Frame
import proofs.«412818_j17119739641951_2_alg».proof.Proof.Spec
import proofs.«412818_j17119739641951_2_alg».proof.Proof.LibMatmulPlain
import Idealize.ShloMosaic.PureOps.Ideal
import Idealize.ShloMosaic.Lib.ValueIdx
import Idealize.ShloMosaic.Lib.ValueLayout
import Idealize.ShloMosaic.Lib.Pipeline.Value
import Mathlib.Algebra.BigOperators.Group.Finset.Basic
set_option maxRecDepth 16384

noncomputable section

namespace Cert.KernelIdeal.LayerB

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The body's value at an entry, over arbitrary operands -/

/-- Entry (r, j) of what the body stores: the sum over the hidden features f of the unclipped layer's entry (r, f) —
    aggregate row against column f of its weights, plus feature row against column f of theirs, plus the bias entry f —
    times entry (f, j) of the read-out matrix. -/
theorem fused_apply (x0 : FVec Ideal S2000x256 .f32) (x1 : FVec Ideal S2000x256 .bf16)
    (x2 x3 : FVec Ideal S256x128 .f32) (x4 : FVec Ideal S128 .f32) (x5 : FVec Ideal S128x2 .f32)
    (r : Fin 2000) (j : Fin 2) :
    k1_pay1 (F := Ideal) x0 x1 x2 x3 x4 x5 (ix2 r j)
      = ∑ f : Fin 128, (((∑ q : Fin 256, x0 (ix2 r q) * x2 (ix2 q f)) + ∑ q : Fin 256, x1 (ix2 r q) * x3 (ix2 q f))
          + x4 (ix1 f)) * x5 (ix2 f j) := by
  unfold k1_pay1
  -- a cast to the same shape is the identity
  simp only [shapeCast_self]
  -- the outer product at (r, j): a sum over f of inner[r, f] · wcat[f, j]
  refine (Cert.LibMatmulPlain.matmul_plain_apply (M := 2000) (K := 128) (N := 2) _ _ r j).trans ?_
  refine Finset.sum_congr rfl fun f _ => ?_
  -- inside the sum: format changes are the identity, sums are entrywise, the bias row is repeated down the rows,
  -- and each inner product at (r, f) is its 256-term sum
  rw [truncf_apply, truncf_apply, addf_apply, addf_apply, broadcastTo_1b_ab_apply, shapeCast_a_1a_apply,
    show dot_S2000x256_S256x128_S2000x128_1_0_0_1_n_n = DotDims.plain 2000 256 128 from rfl,
    Cert.LibMatmulPlain.matmul_plain_apply, Cert.LibMatmulPlain.matmul_plain_apply]
  rfl

/-- If the six operands read six arrays where row r of the tile is row n of the row-indexed arrays, the body's entry
    (r, j) is the score of the unclipped layer at (n, j). -/
theorem fused_tile_of (x0 : FVec Ideal S2000x256 .f32) (x1 : FVec Ideal S2000x256 .bf16)
    (x2 x3 : FVec Ideal S256x128 .f32) (x4 : FVec Ideal S128 .f32) (x5 : FVec Ideal S128x2 .f32)
    (A X : S50000x256.Idx → EReal) (Wrel Wroot : S256x128.Idx → EReal) (B : S128.Idx → EReal) (Wcat : S128x2.Idx → EReal)
    (r : Fin 2000) (j : Fin 2) (n : Fin 50000)
    (h0 : ∀ q : Fin 256, x0 (ix2 r q) = A (ix2 n q)) (h1 : ∀ q : Fin 256, x1 (ix2 r q) = X (ix2 n q))
    (h2 : ∀ (q : Fin 256) (f : Fin 128), x2 (ix2 q f) = Wrel (ix2 q f))
    (h3 : ∀ (q : Fin 256) (f : Fin 128), x3 (ix2 q f) = Wroot (ix2 q f))
    (h4 : ∀ f : Fin 128, x4 (ix1 f) = B (ix1 f)) (h5 : ∀ (f : Fin 128) (j : Fin 2), x5 (ix2 f j) = Wcat (ix2 f j)) :
    k1_pay1 (F := Ideal) x0 x1 x2 x3 x4 x5 (ix2 r j)
      = Cert.Spec.score (N := 50000) (H := 128) (Cert.Spec.conv (N := 50000) (K := 256) (H := 128) A X Wrel Wroot B) Wcat (ix2 n j) := by
  rw [fused_apply, Cert.Spec.score_ix2]
  refine Finset.sum_congr rfl fun f _ => ?_
  rw [Cert.Spec.conv_ix2]
  unfold Cert.Spec.lin
  simp only [h0, h1, h2, h3, h4, h5]

/-! ## Where each operand's block lies in its array -/

variable (V : (c : Dev nD) → (b : Ref sig .tc) → Buf (Elt Ideal) ((c : Thread nD τ).loc b))

/-- The origin of a rank-2 buffer, and of a rank-1 buffer. -/
theorem origin2 : (![0, 0] : Fin 2 → Nat) = fun _ => 0 := funext fun a => by fin_cases a <;> rfl
theorem origin1 : (![0] : Fin 1 → Nat) = fun _ => 0 := funext fun a => by fin_cases a <;> rfl

/-- The block indices at tile t, decided over the 25 tiles: the aggregate, the hidden features and the output sit at
    block (t, 0); the two weight matrices, the bias and the read-out matrix at block 0 on every axis. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry (r, q) of the aggregate's tile t is entry (2000·t + r, q) of the aggregate. -/
theorem agg_tile_apply (c : Dev nD) (t : Fin cfg1.N) (r : Fin 2000) (q : Fin 256) (n : Fin 50000)
    (hn : n.val = 2000 * t.val + r.val) :
    (iblk1 V c 0 t : Vec Ideal S2000x256 .f32) (ix2 r q) = (V c main_v23 : S50000x256.Idx → EReal) (ix2 n q) := by
  obtain ⟨e0, e1, -⟩ := tile_index t
  unfold iblk1
  rw [View.read_apply]
  show V c main_v23 _ = V c main_v23 _
  congr 1
  funext a
  apply Fin.ext
  match a with
  | ⟨0, _⟩ => show win1_0.index t (0 : Fin 2) * 2000 + 1 * r.val = n.val; rw [e0, hn]; omega
  | ⟨1, _⟩ => show win1_0.index t (1 : Fin 2) * 256 + 1 * q.val = q.val; rw [e1]; omega

/-- Entry (r, q) of the hidden features' tile t is entry (2000·t + r, q) of the hidden features. -/
theorem hid_tile_apply (c : Dev nD) (t : Fin cfg1.N) (r : Fin 2000) (q : Fin 256) (n : Fin 50000)
    (hn : n.val = 2000 * t.val + r.val) :
    (iblk1 V c 1 t : Vec Ideal S2000x256 .bf16) (ix2 r q) = (V c main_v12 : S50000x256.Idx → EReal) (ix2 n q) := by
  obtain ⟨-, -, e0, e1, -⟩ := tile_index t
  unfold iblk1
  rw [View.read_apply]
  show V c main_v12 _ = V c main_v12 _
  congr 1
  funext a
  apply Fin.ext
  match a with
  | ⟨0, _⟩ => show win1_1.index t (0 : Fin 2) * 2000 + 1 * r.val = n.val; rw [e0, hn]; omega
  | ⟨1, _⟩ => show win1_1.index t (1 : Fin 2) * 256 + 1 * q.val = q.val; rw [e1]; omega

/-- The aggregate's weights are read whole at every tile. -/
theorem wrel_whole_apply (c : Dev nD) (t : Fin cfg1.N) (q : Fin 256) (f : Fin 128) :
    (iblk1 V c 2 t : Vec Ideal S256x128 .f32) (ix2 q f) = (V c main_arg23 : S256x128.Idx → EReal) (ix2 q f) := by
  obtain ⟨-, -, -, -, e0, e1, -⟩ := tile_index t
  unfold iblk1
  rw [View.read_apply]
  show V c main_arg23 _ = V c main_arg23 _
  congr 1
  funext a
  apply Fin.ext
  match a with
  | ⟨0, _⟩ => show win1_2.index t (0 : Fin 2) * 256 + 1 * q.val = q.val; rw [e0]; omega
  | ⟨1, _⟩ => show win1_2.index t (1 : Fin 2) * 128 + 1 * f.val = f.val; rw [e1]; omega

/-- The features' weights are read whole at every tile. -/
theorem wroot_whole_apply (c : Dev nD) (t : Fin cfg1.N) (q : Fin 256) (f : Fin 128) :
    (iblk1 V c 3 t : Vec Ideal S256x128 .f32) (ix2 q f) = (V c main_arg25 : S256x128.Idx → EReal) (ix2 q f) := by
  obtain ⟨-, -, -, -, -, -, e0, e1, -⟩ := tile_index t
  unfold iblk1
  rw [View.read_apply]
  show V c main_arg25 _ = V c main_arg25 _
  congr 1
  funext a
  apply Fin.ext
  match a with
  | ⟨0, _⟩ => show win1_3.index t (0 : Fin 2) * 256 + 1 * q.val = q.val; rw [e0]; omega
  | ⟨1, _⟩ => show win1_3.index t (1 : Fin 2) * 128 + 1 * f.val = f.val; rw [e1]; omega

/-- The bias is read whole at every tile. -/
theorem bias_whole_apply (c : Dev nD) (t : Fin cfg1.N) (f : Fin 128) :
    (iblk1 V c 4 t : Vec Ideal S128 .f32) (ix1 f) = (V c main_arg24 : S128.Idx → EReal) (ix1 f) := by
  obtain ⟨-, -, -, -, -, -, -, -, e, -⟩ := tile_index t
  unfold iblk1
  rw [View.read_apply]
  show V c main_arg24 _ = V c main_arg24 _
  congr 1
  funext a
  apply Fin.ext
  match a with
  | ⟨0, _⟩ => show win1_4.index t (0 : Fin 1) * 128 + 1 * f.val = f.val; rw [e]; omega

/-- The read-out matrix is read whole at every tile. -/
theorem readout_whole_apply (c : Dev nD) (t : Fin cfg1.N) (f : Fin 128) (j : Fin 2) :
    (iblk1 V c 5 t : Vec Ideal S128x2 .f32) (ix2 f j) = (V c main_v26 : S128x2.Idx → EReal) (ix2 f j) := by
  obtain ⟨-, -, -, -, -, -, -, -, -, e0, e1, -⟩ := tile_index t
  unfold iblk1
  rw [View.read_apply]
  show V c main_v26 _ = V c main_v26 _
  congr 1
  funext a
  apply Fin.ext
  match a with
  | ⟨0, _⟩ => show win1_5.index t (0 : Fin 2) * 128 + 1 * f.val = f.val; rw [e0]; omega
  | ⟨1, _⟩ => show win1_5.index t (1 : Fin 2) * 2 + 1 * j.val = j.val; rw [e1]; omega

/-! ## The tile written at a point, and the whole array -/

/-- The score of the unclipped second layer of the arrays the launch is entered with. -/
abbrev scoreOf (c : Dev nD) : S50000x2.Idx → EReal :=
  Cert.Spec.score (N := 50000) (H := 128)
    (Cert.Spec.conv (N := 50000) (K := 256) (H := 128) (V c main_v23) (V c main_v12) (V c main_arg23) (V c main_arg25) (V c main_arg24))
    (V c main_v26)

/-- The body's entry (r, j) at tile t is the score at row 2000·t + r. -/
theorem fused_tile (c : Dev nD) (t : Fin cfg1.N) (r : Fin 2000) (j : Fin 2) (n : Fin 50000)
    (hn : n.val = 2000 * t.val + r.val) :
    k1_pay1 (F := Ideal) (iblk1 V c 0 t) (iblk1 V c 1 t) (iblk1 V c 2 t) (iblk1 V c 3 t) (iblk1 V c 4 t) (iblk1 V c 5 t) (ix2 r j)
      = scoreOf V c (ix2 n j) :=
  fused_tile_of (iblk1 V c 0 t) (iblk1 V c 1 t) (iblk1 V c 2 t) (iblk1 V c 3 t) (iblk1 V c 4 t) (iblk1 V c 5 t)
    (V c main_v23) (V c main_v12) (V c main_arg23) (V c main_arg25) (V c main_arg24) (V c main_v26) r j n
    (fun q => agg_tile_apply V c t r q n hn) (fun q => hid_tile_apply V c t r q n hn)
    (fun q f => wrel_whole_apply V c t q f) (fun q f => wroot_whole_apply V c t q f)
    (fun f => bias_whole_apply V c t f) (fun f j => readout_whole_apply V c t f j)

/-- What point t writes back is tile t of the score: the body's one store fills its buffer with the fused value of
    the operands' blocks, and the output's tile t is rows 2000·t … 2000·t + 1999, both columns. -/
theorem written_tile (c : Dev nD) (t : Fin cfg1.N) :
    (dat1 (F := Ideal) V c).flushed 6 t = ((cfg1.win 6).blk t).view.read (Elt Ideal) (scoreOf V c) := by
  show (cfg1.win 6).cut (grid1.coords t) ((dat1 V c).after 6 t) = _
  rw [after1_6]
  unfold out1_6
  rw [View.canon_unit_zero origin2]
  simp only [View.ld_unit_zero (S := S2000x256) origin2, View.ld_unit_zero (S := S256x128) origin2,
    View.ld_unit_zero (S := S128) origin1, View.ld_unit_zero (S := S128x2) origin2]
  refine funext fun (y : S2000x2.Idx) => ?_
  obtain ⟨r, j, rfl⟩ : ∃ (r : Fin 2000) (j : Fin 2), y = ix2 r j := ⟨y 0, y 1, eq_ix2 y⟩
  obtain ⟨-, -, -, -, -, -, -, -, -, -, -, e0, e1⟩ := tile_index t
  have hN : cfg1.N = 25 := N_1
  have ht : t.val < 25 := hN ▸ t.isLt
  have hr : r.val < 2000 := r.isLt
  show k1_pay1 (F := Ideal) (iblk1 V c 0 t) (iblk1 V c 1 t) (iblk1 V c 2 t) (iblk1 V c 3 t) (iblk1 V c 4 t) (iblk1 V c 5 t) (ix2 r j)
      = scoreOf V c (((cfg1.win 6).blk t).view.emb (ix2 r j))
  have hemb : ((cfg1.win 6).blk t).view.emb (ix2 r j) = (ix2 (⟨2000 * t.val + r.val, by omega⟩ : Fin 50000) j : S50000x2.Idx) := by
    funext a
    apply Fin.ext
    match a with
    | ⟨0, _⟩ => show win1_6.index t (0 : Fin 2) * 2000 + 1 * r.val = 2000 * t.val + r.val; rw [e0]; omega
    | ⟨1, _⟩ => show win1_6.index t (1 : Fin 2) * 2 + 1 * j.val = j.val; rw [e1]; omega
  rw [hemb]
  exact fused_tile V c t r j ⟨2000 * t.val + r.val, by omega⟩ rfl

/-- An entry of the score array is in tile t iff each coordinate is in the tile's range on its axis. -/
theorem mem_tile (t : Fin cfg1.N) (i : S50000x2.Idx) :
    i ∈ ((cfg1.win 6).blk t).view.set ↔ ∀ a : Fin 2, win1_6.index t a * S2000x2.size a ≤ (i a).val ∧ (i a).val < win1_6.index t a * S2000x2.size a + S2000x2.size a := by
  show i ∈ ((View.whole main_v27).slice (win1_6.rect t)).set ↔ _
  rw [View.set_slice_whole, Rect.mem_set_unit]
  exact Iff.rfl

/-- Every entry is in a tile that is written back: row n is in tile n / 2000. -/
theorem tiles_cover (i : S50000x2.Idx) :
    ∃ t : Fin cfg1.N, (cfg1.win 6).flush t = true ∧ i ∈ ((cfg1.win 6).blk t).view.set := by
  have hi0 : (i 0).val < 50000 := (i 0).isLt
  have hi1 : (i 1).val < 2 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, e0, e1⟩ := tile_index t
  refine ⟨t, flush1_6 t, ?_⟩
  rw [mem_tile]
  intro a
  match a with
  | ⟨0, _⟩ => show win1_6.index t (0 : Fin 2) * 2000 ≤ (i 0).val ∧ (i 0).val < win1_6.index t (0 : Fin 2) * 2000 + 2000; rw [e0, ht]; omega
  | ⟨1, _⟩ => show win1_6.index t (1 : Fin 2) * 2 ≤ (i 1).val ∧ (i 1).val < win1_6.index t (1 : Fin 2) * 2 + 2; rw [e1]; omega

/-- The array the second launch leaves in its output is the score of the unclipped layer of the arrays it was entered with. -/
theorem score_array (c : Dev nD) :
    (dat1 (F := Ideal) V c).arrAt 6 cfg1.N
      = Cert.Spec.score (N := 50000) (H := 128)
          (Cert.Spec.conv (N := 50000) (K := 256) (H := 128) (V c main_v23) (V c main_v12) (V c main_arg23) (V c main_arg25) (V c main_arg24))
          (V c main_v26) :=
  (dat1 (F := Ideal) V c).arrAt_eq_of_cover 6 (scoreOf V c) (fun t _ => written_tile V c t) tiles_cover

end Cert.KernelIdeal.LayerB

end
-- ==== Proof.RefAgg.lean ====
/-
  The reference's second aggregate as a function of the hidden array.

  The reference gathers the rows of its hidden array by the edges' source words and adds them into the rows the
  destination words name. Naming the hidden array as a parameter states the aggregate of ANY array of that shape by
  the same operations, which is how the kernel's program, whose hidden array comes from a launch, meets it.
-/
import proofs.«412818_j17119739641951_2_alg».proof.Proof.Gen.ReferenceIdeal.Read

noncomputable section

namespace Cert.ReferenceIdeal.RefValue

open Cert.ReferenceIdeal Cert.ReferenceIdeal.Gen Cert.ReferenceIdeal.Read Idealize.ShloMosaic

/-- The second aggregate of a hidden array `h`: its rows gathered by the source words, added into the rows the
    destination words name. -/
def aggHidden (h : (⟨S50000x256, .f32⟩ : BufTy).Contents (Elt Ideal)) (x34 x35 : (⟨S600000, .i32⟩ : BufTy).Contents (Elt Ideal)) : (⟨S50000x256, .f32⟩ : BufTy).Contents (Elt Ideal) :=
  Host.scatterAdd (F := Ideal) (φ := .f32) scatter_S50000x256_S600000x1_S600000x256_1_0_0_1 (val_main_v125 (F := Ideal)) (val_main_v126 (F := Ideal) x35)
    (Host.gather gather_S50000x256_S600000x1_S600000x256_1_0_n_n_0_1_1256 h (val_main_v123 (F := Ideal) x34))

/-- The reference's second aggregate is that function of its own hidden array. -/
theorem agg2_eq (x0 : (⟨S50000x128, .f32⟩ : BufTy).Contents (Elt Ideal)) (x20 : (⟨S128x256, .f32⟩ : BufTy).Contents (Elt Ideal)) (x21 : (⟨S256, .f32⟩ : BufTy).Contents (Elt Ideal)) (x22 : (⟨S128x256, .f32⟩ : BufTy).Contents (Elt Ideal))
    (x34 x35 : (⟨S600000, .i32⟩ : BufTy).Contents (Elt Ideal)) :
    val_main_v127 (F := Ideal) x0 x20 x21 x22 x34 x35 = aggHidden (val_main_v67 (F := Ideal) x0 x20 x21 x22 x34 x35) x34 x35 := rfl

end Cert.ReferenceIdeal.RefValue

end
-- ==== Proof.LibGatherVec.lean ====
import Idealize.ShloMosaic.PureOps
import Idealize.ShloMosaic.Lib.ValueIdx
noncomputable section

namespace Cert.LibGatherVec
open Idealize.ShloMosaic Idealize.ShloMosaic.ValueIdx

/-! ## Gathering entries of a one-axis table

A table `x : [N]` is gathered by a column of index words `idx : [M, 1]`: the dimension numbers collapse the
table's only axis and let the one component of each start index address it; the result has no offset axis and
there are no batching axes. Result element `r` is then the table at `row`, where `row` is the `r`-th index
word read as a signed integer and clamped into `[0, N − 1]`.

The operand index of a gather is, on each operand axis, a clamped start plus a batching coordinate plus an offset
coordinate. For these dimension numbers the three summands on the table's axis are computed one by one below: the
start is the clamped index word and the other two vanish (the axis is collapsed, and no axis is a batching one). -/

section Vec
variable {α : Type}

/-- The dimension numbers of an entry gather, for a table `[N]`, start indices `[M, 1]` and a result `[M]`. -/
abbrev vecDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat}
  (wf : GatherDims.WF ⟨1, ![N]⟩ ⟨2, ![M, 1]⟩ ⟨1, ![M]⟩ [] [0] [] [0] [] 1 ![1])

/-- There are no batching axes, so the batching coordinate is zero on the table's axis. -/
theorem vec_batch (j : (⟨1, ![M]⟩ : Shape).Idx) (a : Fin 1) : (vecDims N M wf).batchCoord j a = 0 :=
  GatherDims.batchCoord_eq_zero _ _ _ List.not_mem_nil

/-- The table's axis is collapsed: it is not among the kept axes, so its offset coordinate is zero. -/
theorem vec_off0 (j : (⟨1, ![M]⟩ : Shape).Idx) : (vecDims N M wf).offCoord j 0 = 0 :=
  GatherDims.offCoord_eq_zero _ _ _ fun h => ((GatherDims.mem_sKept _ _).1 h).1 (List.mem_singleton.2 rfl)

/-- The table's axis is component 0 of the start index. That component is read at the start-indices position
    `(j 0, 0)` — the result's only coordinate, and 0 on the index vector's axis —, signed, and clamped to
    `N − 1` (the table's extent less the slice size 1). -/
theorem vec_start0 (j : (⟨1, ![M]⟩ : Shape).Idx) (idx : IVec ⟨2, ![M, 1]⟩ w) :
    (vecDims N M wf).start j idx 0 = min (idx (ix2 (j 0) (0 : Fin 1))).toInt.toNat (N - 1) := by
  unfold GatherDims.start
  rw [dif_pos (List.mem_singleton.2 rfl)]
  have hsi : (vecDims N M wf).siIdx j ⟨List.idxOf (0 : Fin 1) (vecDims N M wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The entry gather with its dimension numbers written out, read at `r`. -/
theorem vec_apply (hN : 0 < N) (x : (⟨1, ![N]⟩ : Shape).Idx → α) (idx : IVec ⟨2, ![M, 1]⟩ w) (r : Fin M) :
    Host.gather (vecDims N M wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (vecDims N M wf).start (ix1 r) idx 0 + (vecDims N M wf).batchCoord (ix1 r) 0
      + (vecDims N M wf).offCoord (ix1 r) 0 = _
    rw [vec_start0, vec_batch, vec_off0]
    rfl

end Vec

/-- A gather that takes single entries of a one-axis table of `N` entries, one entry per index word (dimension
    numbers: no offset axis, collapsed axis 0, start index map `[0]`, index vector axis 1, slice sizes `[1]`, no
    batching axes), reads at `r` the table at `row`, where `row` is the `r`-th index word read as a signed integer
    and clamped into `[0, N − 1]`. The dimension numbers are given by equations on the record's fields; once the
    fields are replaced by these literals the record is the one of `vec_apply`. -/
theorem gather_vec_apply {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1]) (hN : 0 < N)
    (x : (⟨1, ![N]⟩ : Shape).Idx → α) (idx : IVec ⟨2, ![M, 1]⟩ w) (r : Fin M) :
    Host.gather d x idx (ix1 r)
      = x (ix1 (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact vec_apply wf hN x idx r

/-- When the `r`-th index word, read signed, already lies in `[0, N)`, the clamp does nothing: the entry is the
    word itself. -/
theorem gather_vec_apply_of_inRange {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![M, 1]⟩ w) (r : Fin M)
    (h0 : 0 ≤ (idx (ix2 r (0 : Fin 1))).toInt) (hlt : (idx (ix2 r (0 : Fin 1))).toInt < N) :
    Host.gather d x idx (ix1 r)
      = x (ix1 (⟨(idx (ix2 r (0 : Fin 1))).toInt.toNat, by omega⟩ : Fin N)) := by
  have hN : 0 < N := by omega
  rw [gather_vec_apply d h1 h2 h3 h4 h5 h6 h7 hN x idx r]
  have hm : min (idx (ix2 r (0 : Fin 1))).toInt.toNat (N - 1) = (idx (ix2 r (0 : Fin 1))).toInt.toNat :=
    Nat.min_eq_left (by omega)
  exact congrArg x (congrArg (fun a => ix1 a) (Fin.ext hm))
end Cert.LibGatherVec
end
-- ==== Proof.HostSide.lean ====
/-
  The host side of the kernel's program, stretch by stretch.

  Before the first launch the program gathers the features' rows by the edges' source words (a negative word wrapped
  once by the table's height, then clamped by the gather) and adds them into the rows the destination words name: the
  first aggregate, the same operations on the same words as the reference's own first aggregate — the detour through
  a narrower float format is the identity on the extended reals. Between the launches it aggregates the hidden array
  the same way, and lays the two halves of the 256-entry read-out column side by side as a [128, 2] matrix. After the
  second launch it reads column 0 of the score array at the pairs' first members and column 1 at their second
  members, adds the two and the bias, and applies the logistic function.
  No host operation and no launch writes an argument array, so each is read back to the launch memory.
-/
import proofs.«412818_j17119739641951_2_alg».proof.Proof.Gen.KernelIdeal.Frame
import proofs.«412818_j17119739641951_2_alg».proof.Proof.Gen.ReferenceIdeal.Read
import proofs.«412818_j17119739641951_2_alg».proof.Proof.RefAgg
import proofs.«412818_j17119739641951_2_alg».proof.Proof.Spec
import proofs.«412818_j17119739641951_2_alg».proof.Proof.LibGatherVec
import Idealize.ShloMosaic.Lib.StableHlo.Run
import Idealize.ShloMosaic.Lib.ValueLayout
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.ShloMosaic.StableHlo
open scoped BigOperators

variable (m : (ℓ : Loc nD τ sig) → Buf (Elt Ideal) ℓ) (ρ : Dev nD → PrngReg)

/-! ## Tools -/

/-- Every operation of a literal stretch of host operations writes one buffer, and it is another one than the
    buffer asked about. -/
local macro "not_written" ops:ident : tactic =>
  `(tactic| (refine List.forall_iff_forall_mem.mp ?_
             simp only [$ops:ident, List.Forall, StableHlo.nullary_writes, StableHlo.unary_writes,
               StableHlo.binary_writes, StableHlo.ternary_writes, Finset.mem_singleton]
             repeat' apply And.intro
             all_goals exact StableHlo.devRef_ne_of_ne (by decide)))

/-- Narrowing a float array is the identity on the extended reals. -/
theorem truncf_id {s : Shape} (a : FVec Ideal s .f32) (h : FTy.bits .bf16 < FTy.bits .f32) :
    (truncf .bf16 a h : FVec Ideal s .bf16) = a := rfl

/-- Widening a float array is the identity on the extended reals. -/
theorem extf_id {s : Shape} (a : FVec Ideal s .bf16) (h : FTy.bits .bf16 < FTy.bits .f32) :
    (extf .f32 a h : FVec Ideal s .f32) = a := rfl

/-! ## Before the first launch -/

/-- The first stretch writes none of the arguments: each is read back to the launch memory. -/
theorem W1_arg0 (c : Dev nD) : W1 m ρ c (Proc.devRef .tc main_arg0) = m ((c : Thread nD τ).loc main_arg0) :=
  StableHlo.after_of_forall_not_mem (b := Proc.devRef .tc main_arg0) hostOps0 (W0 m ρ c) (by not_written hostOps0)
theorem W1_arg20 (c : Dev nD) : W1 m ρ c (Proc.devRef .tc main_arg20) = m ((c : Thread nD τ).loc main_arg20) :=
  StableHlo.after_of_forall_not_mem (b := Proc.devRef .tc main_arg20) hostOps0 (W0 m ρ c) (by not_written hostOps0)
theorem W1_arg21 (c : Dev nD) : W1 m ρ c (Proc.devRef .tc main_arg21) = m ((c : Thread nD τ).loc main_arg21) :=
  StableHlo.after_of_forall_not_mem (b := Proc.devRef .tc main_arg21) hostOps0 (W0 m ρ c) (by not_written hostOps0)
theorem W1_arg22 (c : Dev nD) : W1 m ρ c (Proc.devRef .tc main_arg22) = m ((c : Thread nD τ).loc main_arg22) :=
  StableHlo.after_of_forall_not_mem (b := Proc.devRef .tc main_arg22) hostOps0 (W0 m ρ c) (by not_written hostOps0)
theorem W1_arg23 (c : Dev nD) : W1 m ρ c (Proc.devRef .tc main_arg23) = m ((c : Thread nD τ).loc main_arg23) :=
  StableHlo.after_of_forall_not_mem (b := Proc.devRef .tc main_arg23) hostOps0 (W0 m ρ c) (by not_written hostOps0)
theorem W1_arg24 (c : Dev nD) : W1 m ρ c (Proc.devRef .tc main_arg24) = m ((c : Thread nD τ).loc main_arg24) :=
  StableHlo.after_of_forall_not_mem (b := Proc.devRef .tc main_arg24) hostOps0 (W0 m ρ c) (by not_written hostOps0)
theorem W1_arg25 (c : Dev nD) : W1 m ρ c (Proc.devRef .tc main_arg25) = m ((c : Thread nD τ).loc main_arg25) :=
  StableHlo.after_of_forall_not_mem (b := Proc.devRef .tc main_arg25) hostOps0 (W0 m ρ c) (by not_written hostOps0)
theorem W1_arg26 (c : Dev nD) : W1 m ρ c (Proc.devRef .tc main_arg26) = m ((c : Thread nD τ).loc main_arg26) :=
  StableHlo.after_of_forall_not_mem (b := Proc.devRef .tc main_arg26) hostOps0 (W0 m ρ c) (by not_written hostOps0)
theorem W1_arg34 (c : Dev nD) : W1 m ρ c (Proc.devRef .tc main_arg34) = m ((c : Thread nD τ).loc main_arg34) :=
  StableHlo.after_of_forall_not_mem (b := Proc.devRef .tc main_arg34) hostOps0 (W0 m ρ c) (by not_written hostOps0)
theorem W1_arg35 (c : Dev nD) : W1 m ρ c (Proc.devRef .tc main_arg35) = m ((c : Thread nD τ).loc main_arg35) :=
  StableHlo.after_of_forall_not_mem (b := Proc.devRef .tc main_arg35) hostOps0 (W0 m ρ c) (by not_written hostOps0)

/-- The first aggregate. The stretch's last operation adds, into the rows the destination words name, the rows it
    gathered by the wrapped source words; narrowing the table before the gather and widening the gathered rows after
    it change nothing on the extended reals, and what is left is the reference's own chain of operations on the same
    three launch arrays. -/
theorem agg1 (c : Dev nD) :
    W1 m ρ c (Proc.devRef .tc main_v11)
      = Cert.ReferenceIdeal.Read.val_main_v59 (F := Ideal) (m ((c : Thread nD τ).loc main_arg0)) (m ((c : Thread nD τ).loc main_arg34)) (m ((c : Thread nD τ).loc main_arg35)) := by
  show StableHlo.after hostOps0 _ (Proc.devRef .tc main_v11) = _
  after_results_simp
  rw [extf_id, truncf_id]
  rfl

/-! ## Between the launches -/

/-- The first launch has no window on these arguments, so they leave it as they entered it. -/
theorem W2_arg23 (c : Dev nD) : W2 m ρ c (Proc.devRef .tc main_arg23) = m ((c : Thread nD τ).loc main_arg23) :=
  (W2_of_ne m ρ c main_arg23 (by decide)).trans (W1_arg23 m ρ c)
theorem W2_arg24 (c : Dev nD) : W2 m ρ c (Proc.devRef .tc main_arg24) = m ((c : Thread nD τ).loc main_arg24) :=
  (W2_of_ne m ρ c main_arg24 (by decide)).trans (W1_arg24 m ρ c)
theorem W2_arg25 (c : Dev nD) : W2 m ρ c (Proc.devRef .tc main_arg25) = m ((c : Thread nD τ).loc main_arg25) :=
  (W2_of_ne m ρ c main_arg25 (by decide)).trans (W1_arg25 m ρ c)
theorem W2_arg26 (c : Dev nD) : W2 m ρ c (Proc.devRef .tc main_arg26) = m ((c : Thread nD τ).loc main_arg26) :=
  (W2_of_ne m ρ c main_arg26 (by decide)).trans (W1_arg26 m ρ c)
theorem W2_arg34 (c : Dev nD) : W2 m ρ c (Proc.devRef .tc main_arg34) = m ((c : Thread nD τ).loc main_arg34) :=
  (W2_of_ne m ρ c main_arg34 (by decide)).trans (W1_arg34 m ρ c)
theorem W2_arg35 (c : Dev nD) : W2 m ρ c (Proc.devRef .tc main_arg35) = m ((c : Thread nD τ).loc main_arg35) :=
  (W2_of_ne m ρ c main_arg35 (by decide)).trans (W1_arg35 m ρ c)

/-- The second aggregate: the same chain of operations on the hidden array the first launch left, whose gathered
    rows are widened, which changes nothing on the extended reals. -/
theorem agg2 (c : Dev nD) :
    W3 m ρ c (Proc.devRef .tc main_v23)
      = Cert.ReferenceIdeal.RefValue.aggHidden (W2 m ρ c (Proc.devRef .tc main_v12)) (m ((c : Thread nD τ).loc main_arg34)) (m ((c : Thread nD τ).loc main_arg35)) := by
  show StableHlo.after hostOps1 _ (Proc.devRef .tc main_v23) = _
  after_results_simp
  rw [extf_id, W2_arg34, W2_arg35]
  rfl

/-- The second stretch does not write the hidden array. -/
theorem W3_hidden (c : Dev nD) : W3 m ρ c (Proc.devRef .tc main_v12) = W2 m ρ c (Proc.devRef .tc main_v12) :=
  StableHlo.after_of_forall_not_mem (b := Proc.devRef .tc main_v12) hostOps1 (W2 m ρ c) (by not_written hostOps1)

/-- The read-out matrix is the two halves of the read-out column, cut out by two slices and joined along the
    second axis. -/
theorem wcat_eq (c : Dev nD) :
    W3 m ρ c (Proc.devRef .tc main_v26)
      = concatenate S128x2 1
          [⟨S128x1, extractStridedSlice S128x1 ![0, 0] (m ((c : Thread nD τ).loc main_arg26)) slices_S256x1_S128x1_0_0⟩,
           ⟨S128x1, extractStridedSlice S128x1 ![128, 0] (m ((c : Thread nD τ).loc main_arg26)) slices_S256x1_S128x1_128_0⟩]
          concatenates_S128x1_S128x1_S128x2_d1 := by
  show StableHlo.after hostOps1 _ (Proc.devRef .tc main_v26) = _
  after_results
  rw [W2_arg26]

/-- Column 0 of the read-out matrix is the first half of the read-out column. -/
theorem W3_wcat0 (c : Dev nD) (f : Fin 128) :
    W3 m ρ c (Proc.devRef .tc main_v26) (ix2 f (0 : Fin 2))
      = m ((c : Thread nD τ).loc main_arg26) (ix2 (⟨f.val, by omega⟩ : Fin 256) (0 : Fin 1)) := by
  rw [wcat_eq]
  -- column 0 lies in the first piece, at the same row; the first slice starts at row 0
  refine (concatenate_pair_apply_left (1 : Fin S128x2.rank) _ _ concatenates_S128x1_S128x1_S128x2_d1 (ix2 f (0 : Fin 2)) rfl
    (ix2 f (0 : Fin 1)) (fun b => ?_)).trans ?_
  · match b with
    | ⟨0, _⟩ => rfl
    | ⟨1, _⟩ => rfl
  · exact slice2_axis0_apply 0 _ slices_S256x1_S128x1_0_0 f (0 : Fin 1) ⟨f.val, by omega⟩ (Nat.zero_add _).symm

/-- Column 1 of the read-out matrix is the second half of the read-out column. -/
theorem W3_wcat1 (c : Dev nD) (f : Fin 128) :
    W3 m ρ c (Proc.devRef .tc main_v26) (ix2 f (1 : Fin 2))
      = m ((c : Thread nD τ).loc main_arg26) (ix2 (⟨128 + f.val, by omega⟩ : Fin 256) (0 : Fin 1)) := by
  rw [wcat_eq]
  -- column 1 lies in the second piece, one column past the first piece's single column; the second slice starts
  -- at row 128
  refine (concatenate_pair_apply_right (1 : Fin S128x2.rank) _ _ concatenates_S128x1_S128x1_S128x2_d1 (ix2 f (1 : Fin 2)) rfl rfl
    (ix2 f (0 : Fin 1)) (fun b hb => ?_) rfl).trans ?_
  · match b, hb with
    | ⟨0, _⟩, _ => rfl
    | ⟨1, _⟩, hb => exact absurd rfl hb
  · exact slice2_axis0_apply 128 _ slices_S256x1_S128x1_128_0 f (0 : Fin 1) ⟨128 + f.val, by omega⟩ rfl

/-- The second stretch writes none of the arguments. -/
theorem W3_arg23 (c : Dev nD) : W3 m ρ c (Proc.devRef .tc main_arg23) = m ((c : Thread nD τ).loc main_arg23) :=
  (StableHlo.after_of_forall_not_mem (b := Proc.devRef .tc main_arg23) hostOps1 (W2 m ρ c) (by not_written hostOps1)).trans
    (W2_arg23 m ρ c)
theorem W3_arg24 (c : Dev nD) : W3 m ρ c (Proc.devRef .tc main_arg24) = m ((c : Thread nD τ).loc main_arg24) :=
  (StableHlo.after_of_forall_not_mem (b := Proc.devRef .tc main_arg24) hostOps1 (W2 m ρ c) (by not_written hostOps1)).trans
    (W2_arg24 m ρ c)
theorem W3_arg25 (c : Dev nD) : W3 m ρ c (Proc.devRef .tc main_arg25) = m ((c : Thread nD τ).loc main_arg25) :=
  (StableHlo.after_of_forall_not_mem (b := Proc.devRef .tc main_arg25) hostOps1 (W2 m ρ c) (by not_written hostOps1)).trans
    (W2_arg25 m ρ c)

end Cert.KernelIdeal.HostSide

end
-- ==== Proof.HostTail.lean ====
/-
  After the second launch: the pair read-out on the host.

  The program takes column 0 and column 1 of the [50000, 2] score array as two vectors, reads the first at the pairs'
  first members and the second at their second members (index words with a negative word wrapped once by the table's
  height, clamped by the gather: the very words the reference computes), adds the two and the bias, and applies the
  logistic function 1 / (1 + exp (−z)), laying the result out as a column.
-/
import proofs.«412818_j17119739641951_2_alg».proof.Proof.Gen.KernelIdeal.Frame
import proofs.«412818_j17119739641951_2_alg».proof.Proof.Gen.ReferenceIdeal.Read
import proofs.«412818_j17119739641951_2_alg».proof.Proof.RefAgg
import proofs.«412818_j17119739641951_2_alg».proof.Proof.Spec
import proofs.«412818_j17119739641951_2_alg».proof.Proof.LibGatherVec
import Idealize.ShloMosaic.Lib.StableHlo.Run
import Idealize.ShloMosaic.Lib.ValueLayout
import Idealize.ShloMosaic.Lib.Pipeline.Value
import Idealize.ShloMosaic.Lib.IdealHost

set_option maxRecDepth 16384

noncomputable section

namespace Cert.KernelIdeal.HostTail

open Cert.KernelIdeal Cert.KernelIdeal.Gen
open Idealize.ShloMosaic Idealize.ShloMosaic.TcCoe Idealize.ShloMosaic.ValueIdx Idealize.ShloMosaic.StableHlo
open scoped BigOperators

/-! ## Three layout operations read at an index -/

section Layout
variable {α : Type}

/-- A vector laid out as a one-column matrix reads, at `(p, 0)`, the vector at `p`. -/
theorem column_apply {M : ℕ} (h : (⟨1, ![M]⟩ : Shape).BroadcastsInDim ⟨2, ![M, 1]⟩ ![0])
    (y : (⟨1, ![M]⟩ : Shape).Idx → α) (p : Fin M) :
    broadcastInDim ⟨2, ![M, 1]⟩ ![0] h y (ix2 p (0 : Fin 1)) = y (ix1 p) :=
  broadcastInDim_apply _ h y (ix2 p (0 : Fin 1)) (ix1 p) (fun a => match a with
    | ⟨0, _⟩ => by
      show p.val = if M = 1 then 0 else p.val
      split
      · have := p.isLt; omega
      · rfl)

/-- Column `k` of a matrix, cut out as a one-column matrix and recast as a vector, reads at `r` the matrix at
    `(r, k)`. -/
theorem cut_column_apply {N C : ℕ} (o : ℕ) (X : (⟨2, ![N, C]⟩ : Shape).Idx → α)
    (hs : (⟨2, ![N, C]⟩ : Shape).Slices ![0, o] ⟨2, ![N, 1]⟩) (hc : (⟨2, ![N, 1]⟩ : Shape).ShapeCasts ⟨1, ![N]⟩)
    (r : Fin N) (k : Fin C) (hk : k.val = o) :
    shapeCast ⟨1, ![N]⟩ (extractStridedSlice ⟨2, ![N, 1]⟩ ![0, o] X hs) hc (ix1 r) = X (ix2 r k) := by
  rw [shapeCast_apply _ hc (ix1 r) (ix2 r (0 : Fin 1)) (by
    rw [Shape.rowMajor_val_two, Shape.rowMajor_val_one]
    show r.val * 1 + 0 = r.val
    omega)]
  exact slice2_axis1_apply o X hs r (0 : Fin 1) k (by rw [hk]; rfl)

/-- A one-entry vector recast as a scalar reads its entry. -/
theorem unit_scalar_apply (b : (⟨1, ![1]⟩ : Shape).Idx → α) (h : (⟨1, ![1]⟩ : Shape).ShapeCasts ⟨0, ![]⟩) :
    shapeCast ⟨0, ![]⟩ b h ix0 = b (ix1 (0 : Fin 1)) :=
  shapeCast_apply b h ix0 (ix1 (0 : Fin 1)) (by
    rw [Shape.rowMajor_val_one]
    exact (Shape.rowMajorPi_zero _ _).symm)

end Layout

/-! ## The read-out at any extents -/

/-- The read-out of a two-column score array `S` over `N` nodes at `M` pairs. Column 0 and column 1 are cut out
    and recast as vectors; the first is gathered at the index words `I0`, the second at `I1` (each word read signed
    and clamped into `[0, N − 1]`); the two gathered vectors and the bias are added and the logistic function
    `1 / (1 + exp (−z))` is applied entry by entry; the result is laid out as a column. Entry `(p, 0)` is the
    logistic function of `S` at the first word's row, column 0, plus `S` at the second word's row, column 1, plus the
    bias. -/
theorem readout_apply {N M : ℕ} (hN : 0 < N)
    (g : GatherDims ⟨1, ![N]⟩ ⟨2, ![M, 1]⟩ ⟨1, ![M]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1])
    (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![M]⟩ ![])
    (hcol : (⟨1, ![M]⟩ : Shape).BroadcastsInDim ⟨2, ![M, 1]⟩ ![0])
    (hu : (⟨1, ![1]⟩ : Shape).ShapeCasts ⟨0, ![]⟩)
    (S : (⟨2, ![N, 2]⟩ : Shape).Idx → Ideal .f32) (I0 I1 : IVec ⟨2, ![M, 1]⟩ 32)
    (b : (⟨1, ![1]⟩ : Shape).Idx → Ideal .f32) (p : Fin M) :
    broadcastInDim ⟨2, ![M, 1]⟩ ![0] hcol
        (Host.divf (broadcastInDim ⟨1, ![M]⟩ ![] hb (constant (F := Ideal) ⟨0, ![]⟩ .f32 0x3F800000#32))
          (addf (broadcastInDim ⟨1, ![M]⟩ ![] hb (constant (F := Ideal) ⟨0, ![]⟩ .f32 0x3F800000#32))
            (Host.exp (Host.negf (addf
              (addf (Host.gather g (shapeCast ⟨1, ![N]⟩ (extractStridedSlice ⟨2, ![N, 1]⟩ ![0, 0] S hs0) hc) I0)
                (Host.gather g (shapeCast ⟨1, ![N]⟩ (extractStridedSlice ⟨2, ![N, 1]⟩ ![0, 1] S hs1) hc) I1))
              (broadcastInDim ⟨1, ![M]⟩ ![] hb (shapeCast ⟨0, ![]⟩ b hu)))))))
        (ix2 p (0 : Fin 1))
      = Cert.Spec.sg ((S (ix2 (Cert.Spec.row N hN I0 p) (0 : Fin 2)) + S (ix2 (Cert.Spec.row N hN I1 p) (1 : Fin 2)))
          + b (ix1 (0 : Fin 1))) := by
  rw [column_apply]
  show FloatOps.hostDivf (broadcastInDim ⟨1, ![M]⟩ ![] hb (constant (F := Ideal) ⟨0, ![]⟩ .f32 0x3F800000#32) (ix1 p))
      (FloatOps.addf (broadcastInDim ⟨1, ![M]⟩ ![] hb (constant (F := Ideal) ⟨0, ![]⟩ .f32 0x3F800000#32) (ix1 p))
        (FloatOps.hostUnary .exp (FloatOps.hostNegf
          ((Host.gather g (shapeCast ⟨1, ![N]⟩ (extractStridedSlice ⟨2, ![N, 1]⟩ ![0, 0] S hs0) hc) I0 (ix1 p)
              + Host.gather g (shapeCast ⟨1, ![N]⟩ (extractStridedSlice ⟨2, ![N, 1]⟩ ![0, 1] S hs1) hc) I1 (ix1 p))
            + broadcastInDim ⟨1, ![M]⟩ ![] hb (shapeCast ⟨0, ![]⟩ b hu) (ix1 p))))) = _
  rw [broadcastInDim_scalar_apply hb (constant (F := Ideal) ⟨0, ![]⟩ .f32 0x3F800000#32) (ix1 p),
    broadcastInDim_scalar_apply hb (shapeCast ⟨0, ![]⟩ b hu) (ix1 p),
    Cert.LibGatherVec.gather_vec_apply g h1 h2 h3 h4 h5 h6 h7 hN _ I0 p,
    Cert.LibGatherVec.gather_vec_apply g h1 h2 h3 h4 h5 h6 h7 hN _ I1 p,
    cut_column_apply 0 S hs0 hc _ (0 : Fin 2) rfl, cut_column_apply 1 S hs1 hc _ (1 : Fin 2) rfl,
    unit_scalar_apply b hu]
  rfl

variable (m : (ℓ : Loc nD τ sig) → Buf (Elt Ideal) ℓ) (ρ : Dev nD → PrngReg)

/-! ## The two arguments the read-out takes are as launched -/

/-- No operation after the second launch writes the pair array: it holds what it held at that launch's exit, and so,
    by the walk back through the whole run, what it was launched with. -/
theorem W4_main_arg36 (c : Dev nD) :
    W4 m ρ c (Proc.devRef .tc main_arg36) = m ((c : Thread nD τ).loc main_arg36) :=
  (StableHlo.after_of_forall_not_mem (b := Proc.devRef .tc main_arg36) hostOps2 (W4 m ρ c)
    (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm.trans (W5_main_arg36 m ρ c)

/-- The same for the read-out's bias. -/
theorem W4_main_arg27 (c : Dev nD) :
    W4 m ρ c (Proc.devRef .tc main_arg27) = m ((c : Thread nD τ).loc main_arg27) :=
  (StableHlo.after_of_forall_not_mem (b := Proc.devRef .tc main_arg27) hostOps2 (W4 m ρ c)
    (List.forall_iff_forall_mem.mp (by
      simp only [hostOps2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm.trans (W5_main_arg27 m ρ c)

/-! ## After the second launch -/

/-- The read-out at pair p of a score array s: the logistic function of column 0 at the first member's row plus
    column 1 at the second member's row plus the bias. -/
def readout (s : FVec Ideal S50000x2 .f32) (b : FVec Ideal S1 .f32) (I0 I1 : IVec S100000x1 32) (p : Fin 100000) :
    Ideal .f32 :=
  Cert.Spec.sg ((s (ix2 (Cert.Spec.row 50000 (by norm_num) I0 p) (0 : Fin 2))
      + s (ix2 (Cert.Spec.row 50000 (by norm_num) I1 p) (1 : Fin 2))) + b (ix1 (0 : Fin 1)))

/-- The result at pair p: the logistic function of the score array's column 0 at the pair's first member plus its
    column 1 at the second member plus the bias. The members' rows are the reference's own index words, clamped. -/
theorem out_apply (c : Dev nD) (p : Fin 100000) :
    W5 m ρ c (Proc.devRef .tc main_v60) (ix2 p (0 : Fin 1))
      = readout (W4 m ρ c (Proc.devRef .tc main_v27)) (m ((c : Thread nD τ).loc main_arg27))
          (Cert.ReferenceIdeal.Read.val_main_v141 (F := Ideal) (m ((c : Thread nD τ).loc main_arg36)))
          (Cert.ReferenceIdeal.Read.val_main_v150 (F := Ideal) (m ((c : Thread nD τ).loc main_arg36))) p := by
  unfold W5 readout
  after_results_simp
  rw [W4_main_arg36 m ρ c, W4_main_arg27 m ρ c]
  exact readout_apply (by norm_num) gather_S50000_S100000x1_S100000_n_0_n_n_0_1_1 rfl rfl rfl rfl rfl rfl rfl _ _ _ _ _ _
    (W4 m ρ c (Proc.devRef .tc main_v27))
    (Cert.ReferenceIdeal.Read.val_main_v141 (F := Ideal) (m ((c : Thread nD τ).loc main_arg36)))
    (Cert.ReferenceIdeal.Read.val_main_v150 (F := Ideal) (m ((c : Thread nD τ).loc main_arg36)))
    (m ((c : Thread nD τ).loc main_arg27)) p

end Cert.KernelIdeal.HostTail

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.RefSide.lean ====
/-
  The reference, read against the specification.

  The reference's hidden array is the clipped layer of its first aggregate (it adds the bias before the second
  product; addition is commutative and associative). Its second layer is the unclipped layer of its second aggregate
  and the hidden array. Its result at pair p gathers the second layer's rows at the pair's two members, lays them end
  to end as one row of 256 entries, multiplies that row by the 256-entry read-out column, adds the bias and applies
  the logistic function; the product over 256 entries is the sum of its two halves of 128.
-/
import proofs.«412818_j17119739641951_2_alg».proof.Proof.Gen.ReferenceIdeal.Read
import proofs.«412818_j17119739641951_2_alg».proof.Proof.Spec
import proofs.«412818_j17119739641951_2_alg».proof.Proof.LibGatherRows
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S50000x128, .f32⟩ : BufTy).Contents (Elt Ideal)) (x20 : (⟨S128x256, .f32⟩ : BufTy).Contents (Elt Ideal)) (x21 : (⟨S256, .f32⟩ : BufTy).Contents (Elt Ideal)) (x22 : (⟨S128x256, .f32⟩ : BufTy).Contents (Elt Ideal))
  (x23 : (⟨S256x128, .f32⟩ : BufTy).Contents (Elt Ideal)) (x24 : (⟨S128, .f32⟩ : BufTy).Contents (Elt Ideal)) (x25 : (⟨S256x128, .f32⟩ : BufTy).Contents (Elt Ideal))
  (x26 : (⟨S256x1, .f32⟩ : BufTy).Contents (Elt Ideal)) (x27 : (⟨S1, .f32⟩ : BufTy).Contents (Elt Ideal))
  (x34 x35 : (⟨S600000, .i32⟩ : BufTy).Contents (Elt Ideal)) (x36 : (⟨S100000x2, .i32⟩ : BufTy).Contents (Elt Ideal))

/-! ### The reference's index functions at explicit coordinates -/

/-- First layer, aggregate product: the left operand is read at row `n`, column `k`. -/
private theorem lidx60 (n : Fin 50000) (j : Fin 256) (k : Fin 128) : lidx_main_v60 (ix2 n j) k = ix2 n k :=
  funext fun a => Fin.ext (by match a with | ⟨0, _⟩ => rfl | ⟨1, _⟩ => rfl)

/-- First layer, aggregate product: the right operand is read at row `k`, column `j`. -/
private theorem ridx60 (n : Fin 50000) (j : Fin 256) (k : Fin 128) : ridx_main_v60 (ix2 n j) k = ix2 k j :=
  funext fun a => Fin.ext (by match a with | ⟨0, _⟩ => rfl | ⟨1, _⟩ => rfl)

/-- First layer, feature product: the left operand is read at row `n`, column `k`. -/
private theorem lidx64 (n : Fin 50000) (j : Fin 256) (k : Fin 128) : lidx_main_v64 (ix2 n j) k = ix2 n k :=
  funext fun a => Fin.ext (by match a with | ⟨0, _⟩ => rfl | ⟨1, _⟩ => rfl)

/-- First layer, feature product: the right operand is read at row `k`, column `j`. -/
private theorem ridx64 (n : Fin 50000) (j : Fin 256) (k : Fin 128) : ridx_main_v64 (ix2 n j) k = ix2 k j :=
  funext fun a => Fin.ext (by match a with | ⟨0, _⟩ => rfl | ⟨1, _⟩ => rfl)

/-- First layer: the bias row, broadcast over the nodes, is read at entry `j`. -/
private theorem bidx62 (n : Fin 50000) (j : Fin 256) : idx_main_v61 (idx_main_v62 (ix2 n j)) = ix1 j :=
  funext fun a => Fin.ext (by match a with | ⟨0, _⟩ => rfl)

/-- Second layer, aggregate product: the left operand is read at row `n`, column `k`. -/
private theorem lidx128 (n : Fin 50000) (j : Fin 128) (k : Fin 256) : lidx_main_v128 (ix2 n j) k = ix2 n k :=
  funext fun a => Fin.ext (by match a with | ⟨0, _⟩ => rfl | ⟨1, _⟩ => rfl)

/-- Second layer, aggregate product: the right operand is read at row `k`, column `j`. -/
private theorem ridx128 (n : Fin 50000) (j : Fin 128) (k : Fin 256) : ridx_main_v128 (ix2 n j) k = ix2 k j :=
  funext fun a => Fin.ext (by match a with | ⟨0, _⟩ => rfl | ⟨1, _⟩ => rfl)

/-- Second layer, hidden product: the left operand is read at row `n`, column `k`. -/
private theorem lidx132 (n : Fin 50000) (j : Fin 128) (k : Fin 256) : lidx_main_v132 (ix2 n j) k = ix2 n k :=
  funext fun a => Fin.ext (by match a with | ⟨0, _⟩ => rfl | ⟨1, _⟩ => rfl)

/-- Second layer, hidden product: the right operand is read at row `k`, column `j`. -/
private theorem ridx132 (n : Fin 50000) (j : Fin 128) (k : Fin 256) : ridx_main_v132 (ix2 n j) k = ix2 k j :=
  funext fun a => Fin.ext (by match a with | ⟨0, _⟩ => rfl | ⟨1, _⟩ => rfl)

/-- Second layer: the bias row, broadcast over the nodes, is read at entry `j`. -/
private theorem bidx130 (n : Fin 50000) (j : Fin 128) : idx_main_v129 (idx_main_v130 (ix2 n j)) = ix1 j :=
  funext fun a => Fin.ext (by match a with | ⟨0, _⟩ => rfl)

/-- The hidden array is the clipped layer of the first aggregate and the features. -/
theorem hidden_eq :
    val_main_v67 (F := Ideal) x0 x20 x21 x22 x34 x35
      = Cert.Spec.convRelu (N := 50000) (K := 128) (H := 256) (val_main_v59 (F := Ideal) x0 x34 x35) x0 x20 x22 x21 := by
  funext i
  obtain ⟨n, j, rfl⟩ : ∃ (n : Fin 50000) (j : Fin 256), i = ix2 n j := ⟨i 0, i 1, eq_ix2 i⟩
  rw [Cert.Spec.convRelu_ix2, ← Cert.Spec.lin_bias_first]
  rw [val_main_v67_apply, val_main_v65_apply, val_main_v63_apply, val_main_v60_apply, val_main_v64_apply,
    val_main_v62_apply, val_main_v61_apply, val_main_call1_v0_apply, val_main_call1_cst_apply]
  simp only [lidx60, ridx60, lidx64, ridx64, bidx62, Ideal.addf_def, Ideal.maximumf_def, Ideal.ofBits_def,
    Ideal.ofBits_zero_f32]

/-- The second layer is the unclipped layer of the second aggregate and the hidden array. -/
theorem layer2_eq :
    val_main_v133 (F := Ideal) x0 x20 x21 x22 x23 x24 x25 x34 x35
      = Cert.Spec.conv (N := 50000) (K := 256) (H := 128) (val_main_v127 (F := Ideal) x0 x20 x21 x22 x34 x35)
          (val_main_v67 (F := Ideal) x0 x20 x21 x22 x34 x35) x23 x25 x24 := by
  funext i
  obtain ⟨n, j, rfl⟩ : ∃ (n : Fin 50000) (j : Fin 128), i = ix2 n j := ⟨i 0, i 1, eq_ix2 i⟩
  rw [Cert.Spec.conv_ix2, ← Cert.Spec.lin_bias_first]
  rw [val_main_v133_apply, val_main_v131_apply, val_main_v128_apply, val_main_v132_apply, val_main_v130_apply,
    val_main_v129_apply]
  simp only [lidx128, ridx128, lidx132, ridx132, bidx130, Ideal.addf_def]

end Cert.ReferenceIdeal.RefValue

end
-- ==== Proof.RefOut.lean ====
/-
  The reference's pair read-out, read at a pair.

  At pair p the reference gathers the second layer's rows at the pair's two members (index words with a negative word
  wrapped once by the table's height, clamped by the gather), lays the two rows end to end as one row of 256 entries,
  multiplies it by the 256-entry read-out column, adds the bias and applies the logistic function 1 / (1 + exp (−z)).
  A sum over 256 entries is the sum over the first 128, which meet the first member's row, plus the sum over the
  last 128, which meet the second member's row.
-/
import proofs.«412818_j17119739641951_2_alg».proof.Proof.Gen.ReferenceIdeal.Read
import proofs.«412818_j17119739641951_2_alg».proof.Proof.Spec
import proofs.«412818_j17119739641951_2_alg».proof.Proof.LibGatherRows
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S50000x128, .f32⟩ : BufTy).Contents (Elt Ideal)) (x20 : (⟨S128x256, .f32⟩ : BufTy).Contents (Elt Ideal)) (x21 : (⟨S256, .f32⟩ : BufTy).Contents (Elt Ideal)) (x22 : (⟨S128x256, .f32⟩ : BufTy).Contents (Elt Ideal))
  (x23 : (⟨S256x128, .f32⟩ : BufTy).Contents (Elt Ideal)) (x24 : (⟨S128, .f32⟩ : BufTy).Contents (Elt Ideal)) (x25 : (⟨S256x128, .f32⟩ : BufTy).Contents (Elt Ideal))
  (x26 : (⟨S256x1, .f32⟩ : BufTy).Contents (Elt Ideal)) (x27 : (⟨S1, .f32⟩ : BufTy).Contents (Elt Ideal))
  (x34 x35 : (⟨S600000, .i32⟩ : BufTy).Contents (Elt Ideal)) (x36 : (⟨S100000x2, .i32⟩ : BufTy).Contents (Elt Ideal))

/-- The bias, broadcast from one entry to a 1 × 1 array and then to the whole column, is read at its one entry. -/
private theorem bias_idx (i : S100000x1.Idx) : idx_main_v154 (idx_main_v155 i) = ix1 (0 : Fin 1) := by
  funext a
  match a with
  | ⟨0, _⟩ => rfl

/-- An entry in the first half of the 256-entry row is the first gathered row's entry: the second layer's row at the
    pair's first member. -/
theorem v152_first_half (p : Fin 100000) (f : Fin 128) :
    val_main_v152 (F := Ideal) x0 x20 x21 x22 x23 x24 x25 x34 x35 x36 (ix2 p (⟨f.val, by omega⟩ : Fin 256))
      = val_main_v133 (F := Ideal) x0 x20 x21 x22 x23 x24 x25 x34 x35
          (ix2 (Cert.Spec.row 50000 (by norm_num) (val_main_v141 (F := Ideal) x36) p) f) := by
  unfold val_main_v152
  rw [concatenate_pair_apply_left _ _ _ concatenates_S100000x128_S100000x128_S100000x256_d1 (ix2 p (⟨f.val, by omega⟩ : Fin 256)) rfl (ix2 p f)
    (fun b => match b with | ⟨0, _⟩ => rfl | ⟨1, _⟩ => rfl)]
  unfold val_main_v142
  generalize val_main_v133 (F := Ideal) x0 x20 x21 x22 x23 x24 x25 x34 x35 = h2
  generalize val_main_v141 (F := Ideal) x36 = I0
  exact Cert.LibGatherRows.gather_rows_apply gather_S50000x128_S100000x1_S100000x128_1_0_n_n_0_1_1128 rfl rfl rfl rfl rfl rfl rfl (by norm_num) h2 I0 p f

/-- An entry in the second half of the 256-entry row is the second gathered row's entry, 128 places earlier: the
    second layer's row at the pair's second member. -/
theorem v152_second_half (p : Fin 100000) (f : Fin 128) :
    val_main_v152 (F := Ideal) x0 x20 x21 x22 x23 x24 x25 x34 x35 x36 (ix2 p (⟨128 + f.val, by omega⟩ : Fin 256))
      = val_main_v133 (F := Ideal) x0 x20 x21 x22 x23 x24 x25 x34 x35
          (ix2 (Cert.Spec.row 50000 (by norm_num) (val_main_v150 (F := Ideal) x36) p) f) := by
  unfold val_main_v152
  rw [concatenate_pair_apply_right _ _ _ concatenates_S100000x128_S100000x128_S100000x256_d1 (ix2 p (⟨128 + f.val, by omega⟩ : Fin 256)) rfl rfl (ix2 p f)
    (fun b hb => match b, hb with | ⟨0, _⟩, _ => rfl | ⟨1, _⟩, hb => absurd rfl hb)
    (by show f.val + 128 = 128 + f.val; omega)]
  unfold val_main_v151
  generalize val_main_v133 (F := Ideal) x0 x20 x21 x22 x23 x24 x25 x34 x35 = h2
  generalize val_main_v150 (F := Ideal) x36 = I1
  exact Cert.LibGatherRows.gather_rows_apply gather_S50000x128_S100000x1_S100000x128_1_0_n_n_0_1_1128 rfl rfl rfl rfl rfl rfl rfl (by norm_num) h2 I1 p f

/-- The result at pair p: the logistic function of the second layer's row at the pair's first member against the
    first half of the read-out column, plus its row at the second member against the second half, plus the bias. -/
theorem out_apply (p : Fin 100000) :
    val_main_v162 (F := Ideal) x0 x20 x21 x22 x23 x24 x25 x26 x27 x34 x35 x36 (ix2 p (0 : Fin 1))
      = Cert.Spec.sg
          (((∑ f : Fin 128, val_main_v133 (F := Ideal) x0 x20 x21 x22 x23 x24 x25 x34 x35
                  (ix2 (Cert.Spec.row 50000 (by norm_num) (val_main_v141 (F := Ideal) x36) p) f)
                * x26 (ix2 (⟨f.val, by omega⟩ : Fin 256) (0 : Fin 1)))
            + ∑ f : Fin 128, val_main_v133 (F := Ideal) x0 x20 x21 x22 x23 x24 x25 x34 x35
                  (ix2 (Cert.Spec.row 50000 (by norm_num) (val_main_v150 (F := Ideal) x36) p) f)
                * x26 (ix2 (⟨128 + f.val, by omega⟩ : Fin 256) (0 : Fin 1)))
            + x27 (ix1 (0 : Fin 1))) := by
  rw [val_main_v162_apply, val_main_v161_apply, val_main_cst_27_apply, val_main_v160_apply, val_main_v159_apply,
    val_main_cst_26_apply, val_main_v158_apply, val_main_v157_apply, val_main_v156_apply, val_main_v155_apply,
    val_main_v154_apply, val_main_v153_apply, bias_idx]
  -- the four pointwise stages over the sum-plus-bias are the logistic function of it
  show Cert.Spec.sg (FloatOps.addf _ _) = _
  refine congrArg Cert.Spec.sg ?_
  rw [Ideal.addf_def]
  refine congrArg (· + x27 (ix1 (0 : Fin 1))) ?_
  -- the sum over 256 entries, cut into its halves
  refine (Cert.Spec.sum_halves (A := 128) (B := 128) (fun k : Fin 256 =>
    val_main_v152 (F := Ideal) x0 x20 x21 x22 x23 x24 x25 x34 x35 x36 (lidx_main_v153 (ix2 p (0 : Fin 1)) k)
      * x26 (ridx_main_v153 (ix2 p (0 : Fin 1)) k))).trans ?_
  refine congrArg₂ (· + ·) (Finset.sum_congr rfl fun f _ => ?_) (Finset.sum_congr rfl fun f _ => ?_)
  · have e1 : lidx_main_v153 (ix2 p (0 : Fin 1)) (Fin.castAdd 128 f) = ix2 p (⟨f.val, by omega⟩ : Fin 256) := by
      funext a
      match a with
      | ⟨0, _⟩ => rfl
      | ⟨1, _⟩ => rfl
    have e2 : ridx_main_v153 (ix2 p (0 : Fin 1)) (Fin.castAdd 128 f)
        = ix2 (⟨f.val, by omega⟩ : Fin 256) (0 : Fin 1) := by
      funext a
      match a with
      | ⟨0, _⟩ => rfl
      | ⟨1, _⟩ => rfl
    show val_main_v152 (F := Ideal) x0 x20 x21 x22 x23 x24 x25 x34 x35 x36 (lidx_main_v153 (ix2 p (0 : Fin 1)) (Fin.castAdd 128 f))
      * x26 (ridx_main_v153 (ix2 p (0 : Fin 1)) (Fin.castAdd 128 f)) = _
    rw [e1, e2, v152_first_half]
  · have e1 : lidx_main_v153 (ix2 p (0 : Fin 1)) (Fin.natAdd 128 f)
        = ix2 p (⟨128 + f.val, by omega⟩ : Fin 256) := by
      funext a
      match a with
      | ⟨0, _⟩ => rfl
      | ⟨1, _⟩ => rfl
    have e2 : ridx_main_v153 (ix2 p (0 : Fin 1)) (Fin.natAdd 128 f)
        = ix2 (⟨128 + f.val, by omega⟩ : Fin 256) (0 : Fin 1) := by
      funext a
      match a with
      | ⟨0, _⟩ => rfl
      | ⟨1, _⟩ => rfl
    show val_main_v152 (F := Ideal) x0 x20 x21 x22 x23 x24 x25 x34 x35 x36 (lidx_main_v153 (ix2 p (0 : Fin 1)) (Fin.natAdd 128 f))
      * x26 (ridx_main_v153 (ix2 p (0 : Fin 1)) (Fin.natAdd 128 f)) = _
    rw [e1, e2, v152_second_half]

end Cert.ReferenceIdeal.RefValue

end
-- ==== Proof.Bridge.lean ====
/-
  The kernel program's result is the reference's.

  Reading the kernel program from the launch memory forward: the first aggregate is the reference's own (same
  operations on the same words); the first launch leaves the clipped layer of it, which is the reference's hidden
  array; the second aggregate is the same function of that array on both sides; the second launch leaves the score
  of the unclipped second layer, which is the reference's second layer, against the two halves of the read-out
  column laid side by side. At a pair the host reads column 0 of the score at the first member and column 1 at the
  second member: the two half-sums of the reference's one product over 256 entries. Both sides then add the bias and
  apply the same logistic function.
-/
import proofs.«412818_j17119739641951_2_alg».proof.Proof.LayerA
import proofs.«412818_j17119739641951_2_alg».proof.Proof.LayerB
import proofs.«412818_j17119739641951_2_alg».proof.Proof.HostSide
import proofs.«412818_j17119739641951_2_alg».proof.Proof.HostTail
import proofs.«412818_j17119739641951_2_alg».proof.Proof.RefAgg
import proofs.«412818_j17119739641951_2_alg».proof.Proof.RefSide
import proofs.«412818_j17119739641951_2_alg».proof.Proof.RefOut

set_option maxRecDepth 16384

noncomputable section

namespace Cert.Bridge

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-- The array the first launch leaves is the reference's hidden array of the launch arrays. -/
theorem hidden_eq (c : Dev nD) :
    W2 m ρ c (Proc.devRef .tc main_v12)
      = Cert.ReferenceIdeal.Read.val_main_v67 (F := Ideal) (m ((c : Thread nD τ).loc main_arg0)) (m ((c : Thread nD τ).loc main_arg20)) (m ((c : Thread nD τ).loc main_arg21)) (m ((c : Thread nD τ).loc main_arg22)) (m ((c : Thread nD τ).loc main_arg34)) (m ((c : Thread nD τ).loc main_arg35)) := by
  rw [Cert.ReferenceIdeal.RefValue.hidden_eq]
  refine (W2_arr m ρ c 5).trans ((Cert.KernelIdeal.LayerA.hp_array (V1 m ρ) c).trans ?_)
  show Cert.Spec.convRelu (N := 50000) (K := 128) (H := 256) (W1 m ρ c (Proc.devRef .tc main_v11)) (W1 m ρ c (Proc.devRef .tc main_arg0))
      (W1 m ρ c (Proc.devRef .tc main_arg20)) (W1 m ρ c (Proc.devRef .tc main_arg22)) (W1 m ρ c (Proc.devRef .tc main_arg21)) = _
  rw [Cert.KernelIdeal.HostSide.agg1, Cert.KernelIdeal.HostSide.W1_arg0, Cert.KernelIdeal.HostSide.W1_arg20,
    Cert.KernelIdeal.HostSide.W1_arg22, Cert.KernelIdeal.HostSide.W1_arg21]

/-- The second layer the second launch forms is the reference's second layer of the launch arrays. -/
theorem layer2_eq (c : Dev nD) :
    Cert.Spec.conv (N := 50000) (K := 256) (H := 128) (W3 m ρ c (Proc.devRef .tc main_v23)) (W3 m ρ c (Proc.devRef .tc main_v12))
        (W3 m ρ c (Proc.devRef .tc main_arg23)) (W3 m ρ c (Proc.devRef .tc main_arg25)) (W3 m ρ c (Proc.devRef .tc main_arg24))
      = Cert.ReferenceIdeal.Read.val_main_v133 (F := Ideal) (m ((c : Thread nD τ).loc main_arg0)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg34)) (m ((c : Thread nD τ).loc main_arg35)) := by
  rw [Cert.KernelIdeal.HostSide.agg2, Cert.KernelIdeal.HostSide.W3_hidden, Cert.KernelIdeal.HostSide.W3_arg23,
    Cert.KernelIdeal.HostSide.W3_arg25, Cert.KernelIdeal.HostSide.W3_arg24, hidden_eq,
    Cert.ReferenceIdeal.RefValue.layer2_eq, Cert.ReferenceIdeal.RefValue.agg2_eq]

/-- The array the second launch leaves is the score of the reference's second layer against the read-out matrix. -/
theorem score_eq (c : Dev nD) :
    W4 m ρ c (Proc.devRef .tc main_v27)
      = Cert.Spec.score (N := 50000) (H := 128)
          (Cert.ReferenceIdeal.Read.val_main_v133 (F := Ideal) (m ((c : Thread nD τ).loc main_arg0)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg34)) (m ((c : Thread nD τ).loc main_arg35)))
          (W3 m ρ c (Proc.devRef .tc main_v26)) := by
  rw [← layer2_eq m ρ c]
  exact (W4_arr m ρ c 6).trans (Cert.KernelIdeal.LayerB.score_array (V3 m ρ) c)

/-- The kernel program's result buffer holds the reference's last stage of the launch arrays. -/
theorem result_eq (c : Dev nD) :
    W5 m ρ c (Proc.devRef .tc main_v60)
      = Cert.ReferenceIdeal.Read.val_main_v162 (F := Ideal) (m ((c : Thread nD τ).loc main_arg0)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg34)) (m ((c : Thread nD τ).loc main_arg35)) (m ((c : Thread nD τ).loc main_arg36)) := by
  funext i
  obtain ⟨p, q, rfl⟩ : ∃ (p : Fin 100000) (q : Fin 1), i = ix2 p q := ⟨i 0, i 1, eq_ix2 i⟩
  obtain rfl : q = 0 := Subsingleton.elim _ _
  rw [Cert.KernelIdeal.HostTail.out_apply, Cert.ReferenceIdeal.RefValue.out_apply]
  unfold Cert.KernelIdeal.HostTail.readout
  rw [score_eq, Cert.Spec.score_ix2, Cert.Spec.score_ix2]
  have hw0 := Cert.KernelIdeal.HostSide.W3_wcat0 m ρ c
  have hw1 := Cert.KernelIdeal.HostSide.W3_wcat1 m ρ c
  generalize W3 m ρ c (Proc.devRef .tc main_v26) = wc at hw0 hw1 ⊢
  simp only [hw0, hw1]

end Cert.Bridge

end
-- ==== Proof.lean ====
/-
  The certificate of a two-layer graph convolution with a pair read-out.

  Only the protein–protein relation reaches the result: the kernel program computes exactly that part, with the two
  dense layer steps as tiled launches and the aggregations and the read-out gathers on the host; the reference
  computes everything on the host and discards the rest. Over the extended reals the two agree entry by entry: a
  change of float format is the identity, a tiled matrix product is the whole product row by row, the bias may be
  added before or after the second product, and the read-out's product of a 256-entry row (two gathered rows laid end
  to end) with the read-out column is the sum of the two 128-entry half-products, which the kernel forms inside its
  second launch and gathers afterwards (Proof/Bridge.lean).
  The three frames: the two kernel programs' are generated whole; the reference's is its generated run with the
  result dropped. The ideal pass rewrote nothing, so there is nothing to preserve.
-/
import proofs.«412818_j17119739641951_2_alg».proof.Defs
import proofs.«412818_j17119739641951_2_alg».proof.Proof.Gen.Kernel
import proofs.«412818_j17119739641951_2_alg».proof.Proof.Gen.Kernel.Skeleton
import proofs.«412818_j17119739641951_2_alg».proof.Proof.Gen.Kernel.Launch
import proofs.«412818_j17119739641951_2_alg».proof.Proof.Gen.Kernel.Points
import proofs.«412818_j17119739641951_2_alg».proof.Proof.Gen.Kernel.Frame
import proofs.«412818_j17119739641951_2_alg».proof.Proof.Gen.KernelIdeal
import proofs.«412818_j17119739641951_2_alg».proof.Proof.Gen.KernelIdeal.Skeleton
import proofs.«412818_j17119739641951_2_alg».proof.Proof.Gen.KernelIdeal.Launch
import proofs.«412818_j17119739641951_2_alg».proof.Proof.Gen.KernelIdeal.Points
import proofs.«412818_j17119739641951_2_alg».proof.Proof.Gen.KernelIdeal.Frame
import proofs.«412818_j17119739641951_2_alg».proof.Proof.Gen.ReferenceIdeal
import proofs.«412818_j17119739641951_2_alg».proof.Proof.Gen.Pre_finite_inputs
import proofs.«412818_j17119739641951_2_alg».proof.Proof.Gen.ReferenceIdeal.Run
import proofs.«412818_j17119739641951_2_alg».proof.Proof.Gen.ReferenceIdeal.Read
import proofs.«412818_j17119739641951_2_alg».proof.Proof.KernelRun
import proofs.«412818_j17119739641951_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten, nothing is to preserve. -/
theorem preserves : Cert.preserves_Kernel_KernelIdeal := trivial

/-- From memories that agree on the arguments both programs end with the same result: the kernel program's result
    buffer holds the reference's last stage of the launch arrays, and so does the reference's. -/
theorem algebraic : Cert.algebraic_KernelIdeal_ReferenceIdeal := by
  intro m ρ m' ρ' _ hagree
  refine ⟨fun c => Cert.KernelIdeal.Gen.W5 m ρ c (Proc.devRef .tc Cert.KernelIdeal.main_v60),
    Cert.KernelIdeal.GenRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31, h32, h33, h34, h35, h36⟩ := hagree c
  rw [Cert.ReferenceIdeal.Read.val_main_v162_eq, h0, h20, h21, h22, h23, h24, h25, h26, h27, h34, h35, h36]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
